-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x600000 : Shape := ⟨2, ![2, 600000]⟩
abbrev S64x768 : Shape := ⟨2, ![64, 768]⟩
abbrev S50000 : Shape := ⟨1, ![50000]⟩
abbrev S1536x128 : Shape := ⟨2, ![1536, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S1536x128 : S_.BroadcastsInDim S1536x128 (![] : Fin 0 → Fin S1536x128.rank)
  reducesTo_S1536x128_S_d0_1 : S1536x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg3 : IVec S50000 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg3 main_v39
  let main_c_15 : IVec S_ 1 := constantI S_ 1 1#1
  let main_v41 : IVec S_ 1 := (fun x v => Host.reduce IntOp.andi x v reducesTo_S50000_S_d0 h_S_) main_v40 main_c_15
  let main_v42 : IVec S_ 1 := andi main_v38 main_v41
  let main_c_16 : IVec S_ 32 := constantI S_ 32 64#32
  let main_v43 : IVec S50000 32 := broadcastInDim S50000 ![] bcast_S_S50000 main_c_16
  let main_v44 : IVec S50000 1 := cmpi .slt main_arg3 main_v43
  let main_c_17 : IVec S_ 1 := constantI S_ 1 1#1
  let main_v45 : IVec S_ 1 := (fun x v => Host.reduce IntOp.andi x v reducesTo_S50000_S_d0 h_S_) main_v44 main_c_17
  let main_v46 : IVec S_ 1 := andi main_v42 main_v45
  main_v46

def fn_part1 {F : FTy → Type} [FloatOps F] (main_arg3 : IVec S50000 32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg3 main_arg9 main_v33

def fn {F : FTy → Type} [FloatOps F] (main_arg0 : FVec F S50000x768 .f32) (main_arg1 : IVec S2x600000 32) (main_arg2 : FVec F S64x768 .f32) (main_arg3 : IVec S50000 32) (main_arg4 : FVec F S1536x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S64x768 .f32 := Host.absf main_arg2
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S1536x128 .f32 := Host.absf main_arg4
  let main_cst_2 : FVec F S_ .f32 := constant S_ .f32 0x7F800000#32
  let main_v10 : FVec F S1536x128 .f32 := broadcastInDim S1536x128 ![] bcast_S_S1536x128 main_cst_2
  let main_v11 : IVec S1536x128 1 := cmpf .olt main_v9 main_v10
  let main_c_3 : IVec S_ 1 := constantI S_ 1 1#1
  let main_v12 : IVec S_ 1 := (fun x v => Host.reduce IntOp.andi x v reducesTo_S1536x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_arg9 main_v13 main_v16
-- ==== Kernel.lean ====
abbrev S50000x768 : Shape := ⟨2, ![50000, 768]⟩
abbrev S2x600000 : Shape := ⟨2, ![2, 600000]⟩
abbrev S64x768 : Shape := ⟨2, ![64, 768]⟩
abbrev S50000 : Shape := ⟨1, ![50000]⟩
abbrev S1536x128 : Shape := ⟨2, ![1536, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S768x128 : Shape := ⟨2, ![768, 128]⟩
abbrev S64x128 : Shape := ⟨2, ![64, 128]⟩
abbrev S50000x128 : Shape := ⟨2, ![50000, 128]⟩
abbrev S2000x768 : Shape := ⟨2, ![2000, 768]⟩
abbrev S2000x1 : Shape := ⟨2, ![2000, 1]⟩
abbrev S2000x128 : Shape := ⟨2, ![2000, 128]⟩
abbrev S2000x64 : Shape := ⟨2, ![2000, 64]⟩
abbrev S650000x128 : Shape := ⟨2, ![650000, 128]⟩
abbrev S1x128 : Shape := ⟨2, ![1, 128]⟩
abbrev S1x1 : Shape := ⟨2, ![1, 1]⟩

abbrev nBuf : Space → Nat
  | .hbm => 99
  | .vmem => 21
  | .smem => 0
  | _ => 0

abbrev bufTy : (tb : Table) → Fin (tcTables nBuf tb) → BufTy
  | .hbm, ⟨0, _⟩ => ⟨S50000x768, .f32⟩
  | .hbm, ⟨1, _⟩ => ⟨S2x600000, .i32⟩
  | .hbm, ⟨2, _⟩ => ⟨S64x768, .f32⟩
  | .hbm, ⟨3, _⟩ => ⟨S50000, .i32⟩
  | .hbm, ⟨4, _⟩ => ⟨S1536x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S50000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000, .f32⟩
  | .hbm, ⟨56, _⟩ => ⟨S650000, .f32⟩
  | .hbm, ⟨57, _⟩ => ⟨S650000x1, .f32⟩
  | .hbm, ⟨58, _⟩ => ⟨S50000x1, .i32⟩
  | .hbm, ⟨59, _⟩ => ⟨S768x128, .f32⟩
  | .hbm, ⟨60, _⟩ => ⟨S768x128, .f32⟩
  | .hbm, ⟨61, _⟩ => ⟨S64x128, .f32⟩
  | .hbm, ⟨62, _⟩ => ⟨S50000x128, .f32⟩
  | .hbm, ⟨63, _⟩ => ⟨S_, .i32⟩
  | .hbm, ⟨64, _⟩ => ⟨S650000, .i32⟩
  | .hbm, ⟨65, _⟩ => ⟨S650000, .i1⟩
  | .hbm, ⟨66, _⟩ => ⟨S_, .i32⟩
  | .hbm, ⟨67, _⟩ => ⟨S650000, .i32⟩
  | .hbm, ⟨68, _⟩ => ⟨S650000, .i32⟩
  | .hbm, ⟨69, _⟩ => ⟨S650000, .i32⟩
  | .hbm, ⟨70, _⟩ => ⟨S650000x1, .i32⟩
  | .hbm, ⟨71, _⟩ => ⟨S650000x128, .f32⟩
  | .hbm, ⟨72, _⟩ => ⟨S650000x128, .f32⟩
  | .hbm, ⟨73, _⟩ => ⟨S650000x128, .f32⟩
  | .hbm, ⟨74, _⟩ => ⟨S_, .f32⟩
  | .hbm, ⟨75, _⟩ => ⟨S50000x128, .f32⟩
  | .hbm, ⟨76, _⟩ => ⟨S650000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S650000, .i32⟩
  | .hbm, ⟨82, _⟩ => ⟨S650000, .i1⟩
  | .hbm, ⟨83, _⟩ => ⟨S_, .i32⟩
  | .hbm, ⟨84, _⟩ => ⟨S650000, .i32⟩
  | .hbm, ⟨85, _⟩ => ⟨S650000, .i32⟩
  | .hbm, ⟨86, _⟩ => ⟨S650000, .i32⟩
  | .hbm, ⟨87, _⟩ => ⟨S650000x1, .i32⟩
  | .hbm, ⟨88, _⟩ => ⟨S650000x128, .f32⟩
  | .hbm, ⟨89, _⟩ => ⟨S650000x128, .f32⟩
  | .hbm, ⟨90, _⟩ => ⟨S650000x128, .f32⟩
  | .hbm, ⟨91, _⟩ => ⟨S_, .f32⟩
  | .hbm, ⟨92, _⟩ => ⟨S50000x128, .f32⟩
  | .hbm, ⟨93, _⟩ => ⟨S650000x1, .i32⟩
  | .hbm, ⟨94, _⟩ => ⟨S50000x128, .f32⟩
  | .hbm, ⟨95, _⟩ => ⟨S1x128, .f32⟩
  | .hbm, ⟨96, _⟩ => ⟨S1x1, .f32⟩
  | .hbm, ⟨97, _⟩ => ⟨S50000x1, .f32⟩
  | .hbm, ⟨98, _⟩ => ⟨S50000, .f32⟩
  | .local _ .vmem, ⟨0, _⟩ => ⟨S2000x768, .f32⟩
  | .local _ .vmem, ⟨1, _⟩ => ⟨S2000x768, .f32⟩
  | .local _ .vmem, ⟨2, _⟩ => ⟨S2000x1, .i32⟩
  | .local _ .vmem, ⟨3, _⟩ => ⟨S2000x1, .i32⟩
  | .local _ .vmem, ⟨4, _⟩ => ⟨S768x128, .f32⟩
  | .local _ .vmem, ⟨5, _⟩ => ⟨S64x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S2000x1, .f32⟩
  | .local _ .vmem, ⟨20, _⟩ => ⟨S2000x1, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  slices_S1536x128_S768x128_0_0 : S1536x128.Slices ![0, 0] S768x128
  slices_S1536x128_S768x128_768_0 : S1536x128.Slices ![768, 0] S768x128
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x128_S2000x128_0_0 : ∀ a, (![0, 0] : Fin 2 → Nat) a + S2000x128.size a ≤ S2000x128.size a
  h_S2000x128 : 0 < S2000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S50000x1_S50000 : S50000x1.ShapeCasts S50000
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S64x768_S768x128_S64x128_1_0_0_1_n_n_wf : DotDims.WF S64x768 S768x128 S64x128 [1] [0] [0] [1] [] []
  dot_S2000x768_S768x128_S2000x128_1_0_0_1_n_n_wf : DotDims.WF S2000x768 S768x128 S2000x128 [1] [0] [0] [1] [] []
  dot_S2000x64_S64x128_S2000x128_1_0_0_1_n_n_wf : DotDims.WF S2000x64 S64x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .i32 = 32 ∨ (Rect.block (s := S50000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x128.size a ≤ S768x128.size a
  hwx0_2 : ∀ i : grid0.Coords, EltTy.bits .f32 = 32 ∨ (Rect.block (s := S768x128) S768x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S64x768_S768x128_S64x128_1_0_0_1_n_n : DotDims S64x768 S768x128 S64x128 where
  lhsContracting := [1]
  rhsContracting := [0]
  lhsNonContracting := [0]
  rhsNonContracting := [1]
  lhsBatch := []
  rhsBatch := []
  wf := dot_S64x768_S768x128_S64x128_1_0_0_1_n_n_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S768x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S2000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x600000 : Shape := ⟨2, ![2, 600000]⟩
abbrev S64x768 : Shape := ⟨2, ![64, 768]⟩
abbrev S50000 : Shape := ⟨1, ![50000]⟩
abbrev S1536x128 : Shape := ⟨2, ![1536, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S650000 : Shape := ⟨1, ![650000]⟩
abbrev S_ : Shape := ⟨0, ![]⟩
abbrev S50000x1 : Shape := ⟨2, ![50000, 1]⟩
abbrev S50000x1536 : Shape := ⟨2, ![50000, 1536]⟩
abbrev S50000x128 : Shape := ⟨2, ![50000, 128]⟩
abbrev S650000x1 : Shape := ⟨2, ![650000, 1]⟩
abbrev S650000x128 : Shape := ⟨2, ![650000, 128]⟩
abbrev S1x128 : Shape := ⟨2, ![1, 128]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S50000x768, .f32⟩
  | 1 => ⟨S2x600000, .i32⟩
  | 2 => ⟨S64x768, .f32⟩
  | 3 => ⟨S50000, .i32⟩
  | 4 => ⟨S1536x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S50000, .i32⟩
  | 11 => ⟨S1x600000, .i32⟩
  | 12 => ⟨S600000, .i32⟩
  | 13 => ⟨S650000, .i32⟩
  | 14 => ⟨S1x600000, .i32⟩
  | 15 => ⟨S600000, .i32⟩
  | 16 => ⟨S650000, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x768, .f32⟩
  | 26 => ⟨S50000x1536, .f32⟩
  | 27 => ⟨S50000x128, .f32⟩
  | 28 => ⟨S_, .f32⟩
  | 29 => ⟨S650000, .f32⟩
  | 30 => ⟨S_, .f32⟩
  | 31 => ⟨S50000, .f32⟩
  | 32 => ⟨S650000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .i1⟩
  | 40 => ⟨S_, .f32⟩
  | 41 => ⟨S_, .f32⟩
  | 42 => ⟨S50000, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000, .f32⟩
  | 58 => ⟨S_, .i32⟩
  | 59 => ⟨S650000, .i32⟩
  | 60 => ⟨S650000, .i1⟩
  | 61 => ⟨S_, .i32⟩
  | 62 => ⟨S650000, .i32⟩
  | 63 => ⟨S650000, .i32⟩
  | 64 => ⟨S650000, .i32⟩
  | 65 => ⟨S650000x1, .i32⟩
  | 66 => ⟨S650000, .f32⟩
  | 67 => ⟨S650000, .f32⟩
  | 68 => ⟨S_, .i32⟩
  | 69 => ⟨S650000, .i32⟩
  | 70 => ⟨S650000, .i1⟩
  | 71 => ⟨S_, .i32⟩
  | 72 => ⟨S650000, .i32⟩
  | 73 => ⟨S650000, .i32⟩
  | 74 => ⟨S650000, .i32⟩
  | 75 => ⟨S650000x1, .i32⟩
  | 76 => ⟨S650000x128, .f32⟩
  | 77 => ⟨S650000x1, .f32⟩
  | 78 => ⟨S650000x128, .f32⟩
  | 79 => ⟨S650000x128, .f32⟩
  | 80 => ⟨S_, .f32⟩
  | 81 => ⟨S50000x128, .f32⟩
  | 82 => ⟨S650000x1, .i32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S650000, .f32⟩
  | 93 => ⟨S_, .f32⟩
  | 94 => ⟨S50000, .f32⟩
  | 95 => ⟨S650000x1, .i32⟩
  | 96 => ⟨S50000, .f32⟩
  | 97 => ⟨S_, .f32⟩
  | 98 => ⟨S50000, .f32⟩
  | 99 => ⟨S50000, .i1⟩
  | 100 => ⟨S_, .f32⟩
  | 101 => ⟨S50000, .f32⟩
  | 102 => ⟨S50000, .i1⟩
  | 103 => ⟨S_, .f32⟩
  | 104 => ⟨S_, .f32⟩
  | 105 => ⟨S50000, .f32⟩
  | 106 => ⟨S50000, .f32⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S650000, .i32⟩
  | 114 => ⟨S650000, .i1⟩
  | 115 => ⟨S_, .i32⟩
  | 116 => ⟨S650000, .i32⟩
  | 117 => ⟨S650000, .i32⟩
  | 118 => ⟨S650000, .i32⟩
  | 119 => ⟨S650000x1, .i32⟩
  | 120 => ⟨S650000, .f32⟩
  | 121 => ⟨S_, .i32⟩
  | 122 => ⟨S650000, .i32⟩
  | 123 => ⟨S650000, .i1⟩
  | 124 => ⟨S_, .i32⟩
  | 125 => ⟨S650000, .i32⟩
  | 126 => ⟨S650000, .i32⟩
  | 127 => ⟨S650000, .i32⟩
  | _ => ⟨S50000x768, .f32⟩

abbrev hbmTy0_1 (i : Nat) : BufTy := match i % 128 with
  | 0 => ⟨S650000x1, .i32⟩
  | 1 => ⟨S650000, .f32⟩
  | 2 => ⟨S650000, .f32⟩
  | 3 => ⟨S_, .i32⟩
  | 4 => ⟨S650000, .i32⟩
  | 5 => ⟨S650000, .i1⟩
  | 6 => ⟨S_, .i32⟩
  | 7 => ⟨S650000, .i32⟩
  | 8 => ⟨S650000, .i32⟩
  | 9 => ⟨S650000, .i32⟩
  | 10 => ⟨S650000x1, .i32⟩
  | 11 => ⟨S650000x128, .f32⟩
  | 12 => ⟨S650000x1, .f32⟩
  | 13 => ⟨S650000x128, .f32⟩
  | 14 => ⟨S650000x128, .f32⟩
  | 15 => ⟨S_, .f32⟩
  | 16 => ⟨S50000x128, .f32⟩
  | 17 => ⟨S650000x1, .i32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x1, .f32⟩
  | 26 => ⟨S1x1, .f32⟩
  | 27 => ⟨S50000x1, .f32⟩
  | 28 => ⟨S50000x1, .f32⟩
  | 29 => ⟨S50000, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_cst_17 : Ref sig .tc := ⟨.hbm, 103, rfl⟩
abbrev main_call3_v0 : Ref sig .tc := ⟨.hbm, 104, rfl⟩
abbrev main_call3_v1 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_call4_v0 : Ref sig .tc := ⟨.hbm, 109, rfl⟩
abbrev main_call4_v1 : Ref sig .tc := ⟨.hbm, 110, rfl⟩
abbrev main_v70 : Ref sig .tc := ⟨.hbm, 111, rfl⟩
abbrev main_c_19 : Ref sig .tc := ⟨.hbm, 112, rfl⟩
abbrev main_v71 : Ref sig .tc := ⟨.hbm, 113, rfl⟩
abbrev main_v72 : Ref sig .tc := ⟨.hbm, 114, rfl⟩
abbrev main_c_20 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_21 : Ref sig .tc := ⟨.hbm, 121, rfl⟩
abbrev main_v78 : Ref sig .tc := ⟨.hbm, 122, rfl⟩
abbrev main_v79 : Ref sig .tc := ⟨.hbm, 123, rfl⟩
abbrev main_c_22 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_23 : Ref sig .tc := ⟨.hbm, 131, rfl⟩
abbrev main_v86 : Ref sig .tc := ⟨.hbm, 132, rfl⟩
abbrev main_v87 : Ref sig .tc := ⟨.hbm, 133, rfl⟩
abbrev main_c_24 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_25 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call5_cst : Ref sig .tc := ⟨.hbm, 150, rfl⟩
abbrev main_call5_v0 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  concatenates_S50000x768_S50000x768_S50000x1536_d1 : Shape.Concatenates [S50000x768, S50000x768] S50000x1536 1
  bcast_S_S650000 : S_.BroadcastsInDim S650000 (![] : Fin 0 → Fin S650000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S64x768_S50000x1_S50000x768_1_0_n_n_0_1_1768_wf : GatherDims.WF S64x768 S50000x1 S50000x768 [1] [0] [] [0] [] 1 ![1, 768]
  dot_S50000x1536_S1536x128_S50000x128_1_0_0_1_n_n_wf : DotDims.WF S50000x1536 S1536x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S64x768_S50000x1_S50000x768_1_0_n_n_0_1_1768 : GatherDims S64x768 S50000x1 S50000x768 where
  offsetDims := [1]
  collapsedSliceDims := [0]
  operandBatchingDims := []
  startIndicesBatchingDims := []
  startIndexMap := [0]
  indexVectorDim := 1
  sliceSizes := ![1, 768]
  wf := gather_S64x768_S50000x1_S50000x768_1_0_n_n_0_1_1768_wf
def dot_S50000x1536_S1536x128_S50000x128_1_0_0_1_n_n : DotDims S50000x1536 S1536x128 S50000x128 where
  lhsContracting := [1]
  rhsContracting := [0]
  lhsNonContracting := [0]
  rhsNonContracting := [1]
  lhsBatch := []
  rhsBatch := []
  wf := dot_S50000x1536_S1536x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.PreDecode.lean ====
/-
  The precondition, read: where it holds, every graph number is one of 0 … 63.

  The printed predicate is a conjunction, by `and` on single bits, of one "all entries" test per input; its last two
  say that every graph number is at least 0 and below 64 as a signed word. A word with both properties is below 64
  as an unsigned number too: a signed word that is not negative has its top bit clear, so its signed and unsigned
  readings agree.
-/
import proofs.«416491_j11553462026720_1_alg».proof.Pre_finite_inputs
import proofs.«416491_j11553462026720_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

/-- The scalar shape has one index. -/
instance : Subsingleton S_.Idx := ⟨fun a b => funext fun d => d.elim0⟩

/-- A word that is at least 0 and below 64 as a signed number is below 64 as an unsigned one. -/
theorem word_lt (w : BitVec 32) (h0 : IntOp.cmpi .sge w 0#32 = 1#1) (h1 : IntOp.cmpi .slt w 64#32 = 1#1) :
    w.toNat < 64 := by
  unfold IntOp.cmpi at h0 h1
  have hb : ∀ b : Bool, BitVec.ofBool b = 1#1 → b = true := by decide
  have h0' := hb _ h0
  have h1' := hb _ h1
  simp only [BitVec.slt, BitVec.sle, decide_eq_true_eq] at h0' h1'
  have h32 := w.isLt
  unfold BitVec.toInt at h0' h1'
  split at h1' <;> simp at h0' h1' <;> omega

variable {F : FTy → Type} [FloatOps F]

/-- Where the precondition is all ones, every graph number is below 64 (unsigned). -/
theorem batch_range (a0 : FVec F S50000x768 .f32) (a1 : IVec S2x600000 32) (a2 : FVec F S64x768 .f32) (a3 : IVec S50000 32)
    (a4 : FVec F S1536x128 .f32) (a5 : FVec F S128 .f32) (a6 : FVec F S128x128 .f32) (a7 : FVec F S128 .f32)
    (a8 : FVec F S128x1 .f32) (a9 : FVec F S1 .f32)
    (h : fn (F := F) a0 a1 a2 a3 a4 a5 a6 a7 a8 a9 = fun _ => 1#1) (p : Fin 50000) :
    (a3 (ix1 p)).toNat < 64 := by
  have e := congrFun h ix0
  unfold fn fn_part1 fn_part2 at e
  dsimp only at e
  obtain ⟨e1, hlt⟩ := IntOp.andi_eq_one.mp e
  obtain ⟨-, hge⟩ := IntOp.andi_eq_one.mp e1
  have hge' := Host.reduce_andi_all _ _ _ _ _ hge (ix1 p)
  have hlt' := Host.reduce_andi_all _ _ _ _ _ hlt (ix1 p)
  exact word_lt _ hge' hlt'

end Cert.Pre_finite_inputs.Decode

end
-- ==== Proof.KDefs.lean ====
/-
  The host side of the idealized kernel program, as closed terms of the edge array: the two endpoint vectors with the
  self loops appended, the in-degree, its inverse square root (zero where the degree is zero), the per-edge weight as
  a column, and the aggregation of a projected node array along the edges (gather the source rows, scale by the edge
  weight, add into the destination rows). These are the terms the program's host operations compose to.
-/
import proofs.«416491_j11553462026720_1_alg».proof.Proof.Gen.KernelIdeal

noncomputable section

namespace Cert.KernelIdeal.KDefs

open Cert.KernelIdeal Cert.KernelIdeal.Gen Idealize.ShloMosaic

variable {F : FTy → Type} [FloatOps F]

/-- An [2, 600000] edge array. -/
abbrev Edges (F : FTy → Type) := (⟨S2x600000, .i32⟩ : BufTy).Contents (Elt F)
/-- A [50000, 128] node array. -/
abbrev Nodes (F : FTy → Type) := (⟨S50000x128, .f32⟩ : BufTy).Contents (Elt F)

/-- The source endpoints: row 0 of the edge array, then one self loop per node. -/
def src (ei : Edges F) : (⟨S650000, .i32⟩ : BufTy).Contents (Elt F) :=
  concatenate S650000 0 [⟨S600000, (shapeCast _ (extractStridedSlice S1x600000 ![0, 0] ei slices_S2x600000_S1x600000_0_0) shapeCasts_S1x600000_S600000)⟩, ⟨S50000, (iotaInDim S50000 32 0)⟩] concatenates_S600000_S50000_S650000_d0

/-- The destination endpoints: row 1 of the edge array, then one self loop per node. -/
def dst (ei : Edges F) : (⟨S650000, .i32⟩ : BufTy).Contents (Elt F) :=
  concatenate S650000 0 [⟨S600000, (shapeCast _ (extractStridedSlice S1x600000 ![1, 0] ei slices_S2x600000_S1x600000_1_0) shapeCasts_S1x600000_S600000)⟩, ⟨S50000, (iotaInDim S50000 32 0)⟩] concatenates_S600000_S50000_S650000_d0

/-- The in-degree: ones added into the destinations. -/
def deg (ei : Edges F) : (⟨S50000, .f32⟩ : BufTy).Contents (Elt F) :=
  Host.scatterAdd scatter_S50000_S650000x1_S650000_n_0_0_1 (broadcastInDim S50000 ![] bcast_S_S50000 (constant S_ .f32 0x00000000#32)) (broadcastInDim S650000x1 ![0] bcast_S650000_S650000x1_0 (dst ei)) (broadcastInDim S650000 ![] bcast_S_S650000 (constant S_ .f32 0x3F800000#32))

/-- The inverse square root of the degree, zero where the degree is not positive. -/
def dinv (ei : Edges F) : (⟨S50000, .f32⟩ : BufTy).Contents (Elt F) :=
  select (cmpf .ogt (deg ei) (broadcastInDim S50000 ![] bcast_S_S50000 (constant S_ .f32 0x00000000#32))) (Host.rsqrt (select (cmpf .ogt (deg ei) (broadcastInDim S50000 ![] bcast_S_S50000 (constant S_ .f32 0x00000000#32))) (deg ei) (broadcastInDim S50000 ![] bcast_S_S50000 (id (constant S_ .f32 0x3F800000#32))))) (broadcastInDim S50000 ![] bcast_S_S50000 (id (constant S_ .f32 0x00000000#32)))

/-- An endpoint vector as a column of start indices, a negative endpoint counted from the end. -/
def startCol (v : (⟨S650000, .i32⟩ : BufTy).Contents (Elt F)) : (⟨S650000x1, .i32⟩ : BufTy).Contents (Elt F) :=
  broadcastInDim S650000x1 ![0] bcast_S650000_S650000x1_0 (select (cmpi .slt v (broadcastInDim S650000 ![] bcast_S_S650000 (constantI S_ 32 0#32))) (addi v (broadcastInDim S650000 ![] bcast_S_S650000 (constantI S_ 32 50000#32))) v)

/-- The per-edge weight, as a column: the inverse roots at the two endpoints multiplied. -/
def ncol (ei : Edges F) : (⟨S650000x1, .f32⟩ : BufTy).Contents (Elt F) :=
  broadcastInDim S650000x1 ![0] bcast_S650000_S650000x1_0 (mulf (Host.gather gather_S50000_S650000x1_S650000_n_0_n_n_0_1_1 (dinv ei) (startCol (src ei))) (Host.gather gather_S50000_S650000x1_S650000_n_0_n_n_0_1_1 (dinv ei) (startCol (dst ei))))

/-- The aggregation over explicit endpoint vectors and weight column: gather the source rows of `H`, scale each by
    its edge's weight, add into the destination rows. -/
def aggOf (s d : (⟨S650000, .i32⟩ : BufTy).Contents (Elt F)) (n : (⟨S650000x1, .f32⟩ : BufTy).Contents (Elt F)) (H : Nodes F) : Nodes F :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 d) (mulf (Host.gather gather_S50000x128_S650000x1_S650000x128_1_0_n_n_0_1_1128 H (startCol s)) (broadcastInDim S650000x128 ![0, 1] bcast_S650000x1_S650000x128_0_1 n))

/-- The aggregation of a node array along the edges of `ei`. -/
def agg (ei : Edges F) (H : Nodes F) : Nodes F := aggOf (src ei) (dst ei) (ncol ei) H

end Cert.KernelIdeal.KDefs

end
-- ==== Proof.KHost0.lean ====
/-
  What the first region finds when it is entered: the host operations before it, read back. Its four input arrays
  (the node features as launched, the graph numbers as a column, the first 768 rows of the first weight matrix, and
  the 64-row table multiplied by the last 768 rows), and the three edge quantities every later stretch reads again
  (the endpoint vectors and the weight column).

  The 52 operations come in five stretches. Each stretch is read once over ARBITRARY contents before it: the buffer it
  writes is its operations' function of the buffers it reads, and a buffer it does not write is carried across
  unchanged. The contents at the first region's entry are then the composition of these, buffer by buffer: the
  endpoint vectors and the in-degree from the first stretch; the degree made safe for the root (one where it is not
  positive) from the second; its inverse root from the third; that root put to zero where the degree is not positive
  from the fourth; the weight column and the region's own inputs from the fifth.
-/
import proofs.«416491_j11553462026720_1_alg».proof.Proof.Gen.KernelIdeal.Frame
import proofs.«416491_j11553462026720_1_alg».proof.Proof.KDefs
import Idealize.ShloMosaic.Lib.StableHlo.Run

noncomputable section

namespace Cert.KernelIdeal.KHost0

open Cert.KernelIdeal Cert.KernelIdeal.Gen Cert.KernelIdeal.KDefs
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## Two intermediate quantities on the way to the inverse root -/

/-- Where the in-degree is positive. -/
def pos (ei : Edges F) : (⟨S50000, .i1⟩ : BufTy).Contents (Elt F) :=
  cmpf .ogt (deg ei) (broadcastInDim S50000 ![] bcast_S_S50000 (constant S_ .f32 0x00000000#32))

/-- The in-degree, with one in place of a degree that is not positive (so that the root is taken of a positive number). -/
def safeDeg (ei : Edges F) : (⟨S50000, .f32⟩ : BufTy).Contents (Elt F) :=
  select (pos ei) (deg ei) (broadcastInDim S50000 ![] bcast_S_S50000 (id (constant S_ .f32 0x3F800000#32)))

/-- The inverse root is the root of the safe degree where the degree is positive, and zero elsewhere. -/
theorem dinv_eq (ei : Edges F) :
    dinv ei = select (pos ei) (Host.rsqrt (safeDeg ei)) (broadcastInDim S50000 ![] bcast_S_S50000 (id (constant S_ .f32 0x00000000#32))) := by
  unfold dinv safeDeg pos
  rfl

/-! ## What each stretch writes -/

/-- The buffers the first stretch writes. -/
abbrev wr0 : List (Ref sig .tc) :=
  [main_v0, main_v1, main_v2, main_v3, main_v4, main_v5, main_v6, main_cst, main_v7, main_cst_0, main_v8, main_v9,
   main_v10, main_cst_1, main_v11, main_v12, main_cst_2, main_v13, main_v14, main_cst_3]
/-- The buffers the second stretch writes. -/
abbrev wr1 : List (Ref sig .tc) := [main_call0_v0, main_call0_v1, main_v15]
/-- The buffers the third stretch writes. -/
abbrev wr2 : List (Ref sig .tc) := [main_v16, main_cst_4]
/-- The buffers the fourth stretch writes. -/
abbrev wr3 : List (Ref sig .tc) := [main_call1_v0, main_call1_v1, main_v17]
/-- The buffers the fifth stretch writes. -/
abbrev wr4 : List (Ref sig .tc) :=
  [main_c, main_v18, main_v19, main_c_5, main_v20, main_v21, main_v22, main_v23, main_v24, main_c_6, main_v25, main_v26,
   main_c_7, main_v27, main_v28, main_v29, main_v30, main_v31, main_v32, main_v33, main_v34, main_v35, main_v36, main_v37]

/-- Every operation of a literal stretch writes one buffer, and that buffer is in the stretch's list. -/
local macro "writes_in_list" l:ident : tactic => `(tactic| (
  simp only [$l:ident, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)))

theorem wr0_covers : (hostOps0 : List (HloOp τ sig (Elt F))).Forall
    fun op => op.writes ⊆ (wr0.map (Proc.devRef (τ := τ) .tc)).toFinset := by writes_in_list hostOps0
theorem wr1_covers : (hostOps0_1 : List (HloOp τ sig (Elt F))).Forall
    fun op => op.writes ⊆ (wr1.map (Proc.devRef (τ := τ) .tc)).toFinset := by writes_in_list hostOps0_1
theorem wr2_covers : (hostOps0_2 : List (HloOp τ sig (Elt F))).Forall
    fun op => op.writes ⊆ (wr2.map (Proc.devRef (τ := τ) .tc)).toFinset := by writes_in_list hostOps0_2
theorem wr3_covers : (hostOps0_3 : List (HloOp τ sig (Elt F))).Forall
    fun op => op.writes ⊆ (wr3.map (Proc.devRef (τ := τ) .tc)).toFinset := by writes_in_list hostOps0_3
theorem wr4_covers : (hostOps0_4 : List (HloOp τ sig (Elt F))).Forall
    fun op => op.writes ⊆ (wr4.map (Proc.devRef (τ := τ) .tc)).toFinset := by writes_in_list hostOps0_4

/-! ## A buffer a stretch does not write is carried across it -/

section Stretches

variable (W : Valuation τ sig (Elt F))

theorem keep0 {r : Ref sig .tc} (h : r ∉ wr0) :
    StableHlo.after hostOps0 W (Proc.devRef .tc r) = W (Proc.devRef .tc r) :=
  StableHlo.after_of_writes_sub hostOps0 W wr0_covers h
theorem keep1 {r : Ref sig .tc} (h : r ∉ wr1) :
    StableHlo.after hostOps0_1 W (Proc.devRef .tc r) = W (Proc.devRef .tc r) :=
  StableHlo.after_of_writes_sub hostOps0_1 W wr1_covers h
theorem keep2 {r : Ref sig .tc} (h : r ∉ wr2) :
    StableHlo.after hostOps0_2 W (Proc.devRef .tc r) = W (Proc.devRef .tc r) :=
  StableHlo.after_of_writes_sub hostOps0_2 W wr2_covers h
theorem keep3 {r : Ref sig .tc} (h : r ∉ wr3) :
    StableHlo.after hostOps0_3 W (Proc.devRef .tc r) = W (Proc.devRef .tc r) :=
  StableHlo.after_of_writes_sub hostOps0_3 W wr3_covers h
theorem keep4 {r : Ref sig .tc} (h : r ∉ wr4) :
    StableHlo.after hostOps0_4 W (Proc.devRef .tc r) = W (Proc.devRef .tc r) :=
  StableHlo.after_of_writes_sub hostOps0_4 W wr4_covers h

/-! ## Each stretch, over arbitrary contents before it

The first stretch reads only the edge array: it splits off the two rows, appends the self loops, and adds ones into
the destinations. -/

/-- The source endpoints. -/
theorem first_v3 : StableHlo.after hostOps0 W (Proc.devRef .tc main_v3) = src (W (Proc.devRef .tc main_arg1)) := by
  unfold src
  dsimp only [hostOps0]
  after_results
  rfl

/-- The destination endpoints. -/
theorem first_v6 : StableHlo.after hostOps0 W (Proc.devRef .tc main_v6) = dst (W (Proc.devRef .tc main_arg1)) := by
  unfold dst
  dsimp only [hostOps0]
  after_results
  rfl

/-- The in-degree. -/
theorem first_v10 : StableHlo.after hostOps0 W (Proc.devRef .tc main_v10) = deg (W (Proc.devRef .tc main_arg1)) := by
  unfold deg dst
  dsimp only [hostOps0]
  after_results
  rfl

/-- Where the in-degree is positive (the comparison the fourth stretch selects by). -/
theorem first_v12 : StableHlo.after hostOps0 W (Proc.devRef .tc main_v12) = pos (W (Proc.devRef .tc main_arg1)) := by
  unfold pos deg dst
  dsimp only [hostOps0]
  after_results
  rfl

/-- Where the in-degree is positive (the same comparison again, the one the second stretch selects by). -/
theorem first_v14 : StableHlo.after hostOps0 W (Proc.devRef .tc main_v14) = pos (W (Proc.devRef .tc main_arg1)) := by
  unfold pos deg dst
  dsimp only [hostOps0]
  after_results
  rfl

/-- The constant one. -/
theorem first_cst3 : StableHlo.after hostOps0 W (Proc.devRef .tc main_cst_3) = constant (F := F) S_ .f32 0x3F800000#32 := by
  dsimp only [hostOps0]
  after_results

/-- The second stretch: one in place of a degree that is not positive. -/
theorem second_v15 : StableHlo.after hostOps0_1 W (Proc.devRef .tc main_v15)
    = select (W (Proc.devRef .tc main_v14) : (⟨S50000, .i1⟩ : BufTy).Contents (Elt F))
        (W (Proc.devRef .tc main_v10) : (⟨S50000, .f32⟩ : BufTy).Contents (Elt F))
        (broadcastInDim S50000 ![] bcast_S_S50000 (id (W (Proc.devRef .tc main_cst_3) : (⟨S_, .f32⟩ : BufTy).Contents (Elt F)))) := by
  dsimp only [hostOps0_1]
  after_results
  rfl

/-- The third stretch: the inverse root. -/
theorem third_v16 : StableHlo.after hostOps0_2 W (Proc.devRef .tc main_v16)
    = Host.rsqrt (W (Proc.devRef .tc main_v15) : (⟨S50000, .f32⟩ : BufTy).Contents (Elt F)) := by
  dsimp only [hostOps0_2]
  after_results

/-- The third stretch also writes the constant zero. -/
theorem third_cst4 : StableHlo.after hostOps0_2 W (Proc.devRef .tc main_cst_4) = constant (F := F) S_ .f32 0x00000000#32 := by
  dsimp only [hostOps0_2]
  after_results

/-- The fourth stretch: zero in place of the root where the degree is not positive. -/
theorem fourth_v17 : StableHlo.after hostOps0_3 W (Proc.devRef .tc main_v17)
    = select (W (Proc.devRef .tc main_v12) : (⟨S50000, .i1⟩ : BufTy).Contents (Elt F))
        (W (Proc.devRef .tc main_v16) : (⟨S50000, .f32⟩ : BufTy).Contents (Elt F))
        (broadcastInDim S50000 ![] bcast_S_S50000 (id (W (Proc.devRef .tc main_cst_4) : (⟨S_, .f32⟩ : BufTy).Contents (Elt F)))) := by
  dsimp only [hostOps0_3]
  after_results
  rfl

/-- The fifth stretch: the weight of an edge is the product of the inverse roots at its two endpoints. -/
theorem fifth_v33 : StableHlo.after hostOps0_4 W (Proc.devRef .tc main_v33)
    = broadcastInDim S650000x1 ![0] bcast_S650000_S650000x1_0
        (mulf (Host.gather gather_S50000_S650000x1_S650000_n_0_n_n_0_1_1
                (W (Proc.devRef .tc main_v17) : (⟨S50000, .f32⟩ : BufTy).Contents (Elt F))
                (startCol (W (Proc.devRef .tc main_v3))))
              (Host.gather gather_S50000_S650000x1_S650000_n_0_n_n_0_1_1
                (W (Proc.devRef .tc main_v17) : (⟨S50000, .f32⟩ : BufTy).Contents (Elt F))
                (startCol (W (Proc.devRef .tc main_v6))))) := by
  unfold startCol
  dsimp only [hostOps0_4]
  after_results_simp

/-- The fifth stretch: the graph numbers as a column. -/
theorem fifth_v34 : StableHlo.after hostOps0_4 W (Proc.devRef .tc main_v34)
    = shapeCast S50000x1 (W (Proc.devRef .tc main_arg3) : (⟨S50000, .i32⟩ : BufTy).Contents (Elt F)) shapeCasts_S50000_S50000x1 := by
  dsimp only [hostOps0_4]
  after_results
  rfl

/-- The fifth stretch: the first 768 rows of the first weight matrix. -/
theorem fifth_v35 : StableHlo.after hostOps0_4 W (Proc.devRef .tc main_v35)
    = extractStridedSlice S768x128 ![0, 0] (W (Proc.devRef .tc main_arg4) : (⟨S1536x128, .f32⟩ : BufTy).Contents (Elt F)) slices_S1536x128_S768x128_0_0 := by
  dsimp only [hostOps0_4]
  after_results

/-- The fifth stretch: the 64-row table multiplied by the last 768 rows of the first weight matrix. -/
theorem fifth_v37 : StableHlo.after hostOps0_4 W (Proc.devRef .tc main_v37)
    = Host.dotGeneral dot_S64x768_S768x128_S64x128_1_0_0_1_n_n none
        (W (Proc.devRef .tc main_arg2) : (⟨S64x768, .f32⟩ : BufTy).Contents (Elt F))
        (extractStridedSlice S768x128 ![768, 0] (W (Proc.devRef .tc main_arg4) : (⟨S1536x128, .f32⟩ : BufTy).Contents (Elt F)) slices_S1536x128_S768x128_768_0) := by
  dsimp only [hostOps0_4]
  after_results

end Stretches

/-! ## The contents at the stretch boundaries, buffer by buffer -/

variable (m : (ℓ : Loc nD τ sig) → Buf (Elt F) ℓ) (ρ : Dev nD → PrngReg)

/-- A buffer the first four stretches do not write holds before the fifth what the launch gave it. -/
theorem W4_launch (c : Dev nD) {r : Ref sig .tc} (h0 : r ∉ wr0) (h1 : r ∉ wr1) (h2 : r ∉ wr2) (h3 : r ∉ wr3) :
    W4 m ρ c (Proc.devRef .tc r) = W0 m ρ c (Proc.devRef .tc r) :=
  (keep3 (W3 m ρ c) h3).trans ((keep2 (W2 m ρ c) h2).trans ((keep1 (W1 m ρ c) h1).trans (keep0 (W0 m ρ c) h0)))

/-- After the first stretch: the source endpoints. -/
theorem W1_v3 (c : Dev nD) : W1 m ρ c (Proc.devRef .tc main_v3) = src (m ((c : Thread nD τ).loc main_arg1)) :=
  first_v3 (W0 m ρ c)
/-- After the first stretch: the destination endpoints. -/
theorem W1_v6 (c : Dev nD) : W1 m ρ c (Proc.devRef .tc main_v6) = dst (m ((c : Thread nD τ).loc main_arg1)) :=
  first_v6 (W0 m ρ c)
/-- After the first stretch: the in-degree. -/
theorem W1_v10 (c : Dev nD) : W1 m ρ c (Proc.devRef .tc main_v10) = deg (m ((c : Thread nD τ).loc main_arg1)) :=
  first_v10 (W0 m ρ c)
/-- After the first stretch: where the in-degree is positive. -/
theorem W1_v12 (c : Dev nD) : W1 m ρ c (Proc.devRef .tc main_v12) = pos (m ((c : Thread nD τ).loc main_arg1)) :=
  first_v12 (W0 m ρ c)
/-- After the first stretch: where the in-degree is positive, the second copy. -/
theorem W1_v14 (c : Dev nD) : W1 m ρ c (Proc.devRef .tc main_v14) = pos (m ((c : Thread nD τ).loc main_arg1)) :=
  first_v14 (W0 m ρ c)
/-- After the first stretch: the constant one. -/
theorem W1_cst3 (c : Dev nD) : W1 m ρ c (Proc.devRef .tc main_cst_3) = constant (F := F) S_ .f32 0x3F800000#32 :=
  first_cst3 (W0 m ρ c)

/-- After the second stretch: the safe degree. -/
theorem W2_v15 (c : Dev nD) : W2 m ρ c (Proc.devRef .tc main_v15) = safeDeg (m ((c : Thread nD τ).loc main_arg1)) := by
  refine (second_v15 (W1 m ρ c)).trans ?_
  unfold safeDeg
  rw [W1_v14 m ρ c, W1_v10 m ρ c, W1_cst3 m ρ c]

/-- The second stretch carries the positivity comparison across. -/
theorem W2_v12 (c : Dev nD) : W2 m ρ c (Proc.devRef .tc main_v12) = pos (m ((c : Thread nD τ).loc main_arg1)) :=
  (keep1 (W1 m ρ c) (by decide)).trans (W1_v12 m ρ c)

/-- After the third stretch: the inverse root of the safe degree. -/
theorem W3_v16 (c : Dev nD) : W3 m ρ c (Proc.devRef .tc main_v16) = Host.rsqrt (safeDeg (m ((c : Thread nD τ).loc main_arg1))) := by
  refine (third_v16 (W2 m ρ c)).trans ?_
  rw [W2_v15 m ρ c]

/-- After the third stretch: the constant zero. -/
theorem W3_cst4 (c : Dev nD) : W3 m ρ c (Proc.devRef .tc main_cst_4) = constant (F := F) S_ .f32 0x00000000#32 :=
  third_cst4 (W2 m ρ c)

/-- The third stretch carries the positivity comparison across. -/
theorem W3_v12 (c : Dev nD) : W3 m ρ c (Proc.devRef .tc main_v12) = pos (m ((c : Thread nD τ).loc main_arg1)) :=
  (keep2 (W2 m ρ c) (by decide)).trans (W2_v12 m ρ c)

/-- After the fourth stretch: the inverse root of the degree, zero where the degree is not positive. -/
theorem W4_v17 (c : Dev nD) : W4 m ρ c (Proc.devRef .tc main_v17) = dinv (m ((c : Thread nD τ).loc main_arg1)) := by
  refine (fourth_v17 (W3 m ρ c)).trans ?_
  rw [dinv_eq, W3_v12 m ρ c, W3_v16 m ρ c, W3_cst4 m ρ c]

/-- The second, third and fourth stretches carry the source endpoints across. -/
theorem W4_v3 (c : Dev nD) : W4 m ρ c (Proc.devRef .tc main_v3) = src (m ((c : Thread nD τ).loc main_arg1)) :=
  (keep3 (W3 m ρ c) (by decide)).trans ((keep2 (W2 m ρ c) (by decide)).trans ((keep1 (W1 m ρ c) (by decide)).trans (W1_v3 m ρ c)))

/-- The second, third and fourth stretches carry the destination endpoints across. -/
theorem W4_v6 (c : Dev nD) : W4 m ρ c (Proc.devRef .tc main_v6) = dst (m ((c : Thread nD τ).loc main_arg1)) :=
  (keep3 (W3 m ρ c) (by decide)).trans ((keep2 (W2 m ρ c) (by decide)).trans ((keep1 (W1 m ρ c) (by decide)).trans (W1_v6 m ρ c)))

/-! ## What the first region finds -/

/-- The node features are as launched. -/
theorem V5_arg0 (c : Dev nD) : V5 m ρ c main_arg0 = m ((c : Thread nD τ).loc main_arg0) := by
  show W5 m ρ c (Proc.devRef .tc main_arg0) = _
  exact (keep4 (W4 m ρ c) (by decide)).trans (W4_launch m ρ c (by decide) (by decide) (by decide) (by decide))

/-- The graph numbers, as a column. -/
theorem V5_v34 (c : Dev nD) : V5 m ρ c main_v34 = shapeCast S50000x1 (m ((c : Thread nD τ).loc main_arg3)) shapeCasts_S50000_S50000x1 := by
  show W5 m ρ c (Proc.devRef .tc main_v34) = _
  refine (fifth_v34 (W4 m ρ c)).trans ?_
  rw [W4_launch m ρ c (r := main_arg3) (by decide) (by decide) (by decide) (by decide)]

/-- The first 768 rows of the first weight matrix. -/
theorem V5_v35 (c : Dev nD) : V5 m ρ c main_v35 = extractStridedSlice S768x128 ![0, 0] (m ((c : Thread nD τ).loc main_arg4)) slices_S1536x128_S768x128_0_0 := by
  show W5 m ρ c (Proc.devRef .tc main_v35) = _
  refine (fifth_v35 (W4 m ρ c)).trans ?_
  rw [W4_launch m ρ c (r := main_arg4) (by decide) (by decide) (by decide) (by decide)]

/-- The 64-row table multiplied by the last 768 rows of the first weight matrix. -/
theorem V5_v37 (c : Dev nD) : V5 m ρ c main_v37 = Host.dotGeneral dot_S64x768_S768x128_S64x128_1_0_0_1_n_n none (m ((c : Thread nD τ).loc main_arg2)) (extractStridedSlice S768x128 ![768, 0] (m ((c : Thread nD τ).loc main_arg4)) slices_S1536x128_S768x128_768_0) := by
  show W5 m ρ c (Proc.devRef .tc main_v37) = _
  refine (fifth_v37 (W4 m ρ c)).trans ?_
  rw [W4_launch m ρ c (r := main_arg2) (by decide) (by decide) (by decide) (by decide),
    W4_launch m ρ c (r := main_arg4) (by decide) (by decide) (by decide) (by decide)]

/-- The source endpoints. -/
theorem W5_v3 (c : Dev nD) : W5 m ρ c (Proc.devRef .tc main_v3) = src (m ((c : Thread nD τ).loc main_arg1)) :=
  (keep4 (W4 m ρ c) (by decide)).trans (W4_v3 m ρ c)

/-- The destination endpoints. -/
theorem W5_v6 (c : Dev nD) : W5 m ρ c (Proc.devRef .tc main_v6) = dst (m ((c : Thread nD τ).loc main_arg1)) :=
  (keep4 (W4 m ρ c) (by decide)).trans (W4_v6 m ρ c)

/-- The edge weights, as a column. -/
theorem W5_v33 (c : Dev nD) : W5 m ρ c (Proc.devRef .tc main_v33) = ncol (m ((c : Thread nD τ).loc main_arg1)) := by
  refine (fifth_v33 (W4 m ρ c)).trans ?_
  unfold ncol
  rw [W4_v17 m ρ c, W4_v3 m ρ c, W4_v6 m ρ c]

end Cert.KernelIdeal.KHost0

end
-- ==== Proof.KHost1.lean ====
/-
  What the second and third regions find when they are entered, and what the program returns: the host operations
  between and after the regions, read back. Each later region's node array is the aggregation, along the edges, of
  what the region before it wrote; its bias is an argument laid out as a row; its weight matrix is an argument as
  launched. The result is the last region's column read as a vector.
-/
import proofs.«416491_j11553462026720_1_alg».proof.Proof.Gen.KernelIdeal.Frame
import proofs.«416491_j11553462026720_1_alg».proof.Proof.KDefs
import proofs.«416491_j11553462026720_1_alg».proof.Proof.KHost0
import Idealize.ShloMosaic.Lib.StableHlo.Run

noncomputable section

namespace Cert.KernelIdeal.KHost1

open Cert.KernelIdeal Cert.KernelIdeal.Gen Cert.KernelIdeal.KDefs
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A stretch of host operations leaves a buffer that none of them writes as it was: every operation writes exactly
    one buffer, its result, and the reference asked about is none of those results. -/
local macro "stretch_keeps " ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The edge quantities at the later boundaries

The two endpoint vectors and the weight column are computed before the first region and never written again, and no
region holds them: at every later boundary they are what they were at the first region's entry. -/

theorem W6_v3 (c : Dev nD) : W6 m ρ c (Proc.devRef .tc main_v3) = src (m ((c : Thread nD τ).loc main_arg1)) :=
  (W6_of_ne m ρ c main_v3 (by decide)).trans (Cert.KernelIdeal.KHost0.W5_v3 m ρ c)

theorem W6_v6 (c : Dev nD) : W6 m ρ c (Proc.devRef .tc main_v6) = dst (m ((c : Thread nD τ).loc main_arg1)) :=
  (W6_of_ne m ρ c main_v6 (by decide)).trans (Cert.KernelIdeal.KHost0.W5_v6 m ρ c)

theorem W6_v33 (c : Dev nD) : W6 m ρ c (Proc.devRef .tc main_v33) = ncol (m ((c : Thread nD τ).loc main_arg1)) :=
  (W6_of_ne m ρ c main_v33 (by decide)).trans (Cert.KernelIdeal.KHost0.W5_v33 m ρ c)

theorem W8_v3 (c : Dev nD) : W8 m ρ c (Proc.devRef .tc main_v3) = src (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by stretch_keeps hostOps1 main_v3
    _ = src (m ((c : Thread nD τ).loc main_arg1)) := W6_v3 m ρ c

theorem W8_v6 (c : Dev nD) : W8 m ρ c (Proc.devRef .tc main_v6) = dst (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := by stretch_keeps hostOps1 main_v6
    _ = dst (m ((c : Thread nD τ).loc main_arg1)) := W6_v6 m ρ c

theorem W8_v33 (c : Dev nD) : W8 m ρ c (Proc.devRef .tc main_v33) = ncol (m ((c : Thread nD τ).loc main_arg1)) :=
  calc W8 m ρ c (Proc.devRef .tc main_v33)
    _ = W7 m ρ c (Proc.devRef .tc main_v33) := W8_of_ne m ρ c main_v33 (by decide)
    _ = W6 m ρ c (Proc.devRef .tc main_v33) := by stretch_keeps hostOps1 main_v33
    _ = ncol (m ((c : Thread nD τ).loc main_arg1)) := W6_v33 m ρ c

/-! ## The arguments at the later boundaries

No operation writes an argument, and a region that stages one leaves it as it found it; so from any boundary on an
argument's buffer holds what it holds when the program returns, which is its launch contents. Each lemma reads the
run's end back to the boundary it is about. -/

theorem W6_arg5 (c : Dev nD) : W6 m ρ c (Proc.devRef .tc main_arg5) = m ((c : Thread nD τ).loc main_arg5) :=
  (calc W11 m ρ c (Proc.devRef .tc main_arg5)
    _ = W10 m ρ c (Proc.devRef .tc main_arg5) := by stretch_keeps hostOps3 main_arg5
    _ = W9 m ρ c (Proc.devRef .tc main_arg5) := W10_of_ne m ρ c main_arg5 (by decide)
    _ = W8 m ρ c (Proc.devRef .tc main_arg5) := by stretch_keeps hostOps2 main_arg5
    _ = W7 m ρ c (Proc.devRef .tc main_arg5) := W8_of_ne m ρ c main_arg5 (by decide)
    _ = W6 m ρ c (Proc.devRef .tc main_arg5) := by stretch_keeps hostOps1 main_arg5).symm.trans (W11_main_arg5 m ρ c)

theorem W7_arg6 (c : Dev nD) : W7 m ρ c (Proc.devRef .tc main_arg6) = m ((c : Thread nD τ).loc main_arg6) :=
  (calc W11 m ρ c (Proc.devRef .tc main_arg6)
    _ = W10 m ρ c (Proc.devRef .tc main_arg6) := by stretch_keeps hostOps3 main_arg6
    _ = W9 m ρ c (Proc.devRef .tc main_arg6) := W10_of_ne m ρ c main_arg6 (by decide)
    _ = W8 m ρ c (Proc.devRef .tc main_arg6) := by stretch_keeps hostOps2 main_arg6
    _ = W7 m ρ c (Proc.devRef .tc main_arg6) :=
        (W8_arr m ρ c 2).trans (((dat1 (V7 m ρ) c).arrAt_in 2 rfl _).trans (A_eq1 (V7 m ρ) c 2))).symm.trans
    (W11_main_arg6 m ρ c)

theorem W8_arg7 (c : Dev nD) : W8 m ρ c (Proc.devRef .tc main_arg7) = m ((c : Thread nD τ).loc main_arg7) :=
  (calc W11 m ρ c (Proc.devRef .tc main_arg7)
    _ = W10 m ρ c (Proc.devRef .tc main_arg7) := by stretch_keeps hostOps3 main_arg7
    _ = W9 m ρ c (Proc.devRef .tc main_arg7) := W10_of_ne m ρ c main_arg7 (by decide)
    _ = W8 m ρ c (Proc.devRef .tc main_arg7) := by stretch_keeps hostOps2 main_arg7).symm.trans (W11_main_arg7 m ρ c)

theorem W8_arg9 (c : Dev nD) : W8 m ρ c (Proc.devRef .tc main_arg9) = m ((c : Thread nD τ).loc main_arg9) :=
  (calc W11 m ρ c (Proc.devRef .tc main_arg9)
    _ = W10 m ρ c (Proc.devRef .tc main_arg9) := by stretch_keeps hostOps3 main_arg9
    _ = W9 m ρ c (Proc.devRef .tc main_arg9) := W10_of_ne m ρ c main_arg9 (by decide)
    _ = W8 m ρ c (Proc.devRef .tc main_arg9) := by stretch_keeps hostOps2 main_arg9).symm.trans (W11_main_arg9 m ρ c)

theorem W9_arg8 (c : Dev nD) : W9 m ρ c (Proc.devRef .tc main_arg8) = m ((c : Thread nD τ).loc main_arg8) :=
  (calc W11 m ρ c (Proc.devRef .tc main_arg8)
    _ = W10 m ρ c (Proc.devRef .tc main_arg8) := by stretch_keeps hostOps3 main_arg8
    _ = W9 m ρ c (Proc.devRef .tc main_arg8) :=
        (W10_arr m ρ c 2).trans (((dat2 (V9 m ρ) c).arrAt_in 2 rfl _).trans (A_eq2 (V9 m ρ) c 2))).symm.trans
    (W11_main_arg8 m ρ c)

/-! ## The second region's entry -/

/-- Its node array: the first region's output aggregated along the edges. -/
theorem V7_v50 (c : Dev nD) : V7 m ρ c main_v50 = agg (m ((c : Thread nD τ).loc main_arg1)) ((dat0 (V5 m ρ) c).arrAt 4 cfg0.N) := by
  have h38 : W6 m ρ c (Proc.devRef .tc main_v38) = (dat0 (V5 m ρ) c).arrAt 4 cfg0.N := W6_arr m ρ c 4
  show StableHlo.after hostOps1 (W6 m ρ c) (Proc.devRef .tc main_v50) = _
  after_results_simp
  rw [h38, W6_v3 m ρ c, W6_v6 m ρ c, W6_v33 m ρ c]
  unfold agg aggOf startCol
  rfl

/-- Its bias: the first bias vector as a row. -/
theorem V7_v51 (c : Dev nD) : V7 m ρ c main_v51 = shapeCast S1x128 (m ((c : Thread nD τ).loc main_arg5)) shapeCasts_S128_S1x128 := by
  show StableHlo.after hostOps1 (W6 m ρ c) (Proc.devRef .tc main_v51) = _
  after_results
  rw [W6_arg5 m ρ c]
  rfl

/-- Its weight matrix is as launched. -/
theorem V7_arg6 (c : Dev nD) : V7 m ρ c main_arg6 = m ((c : Thread nD τ).loc main_arg6) := by
  exact W7_arg6 m ρ c

/-! ## The third region's entry -/

/-- Its node array: the second region's output aggregated along the edges. -/
theorem V9_v64 (c : Dev nD) : V9 m ρ c main_v64 = agg (m ((c : Thread nD τ).loc main_arg1)) ((dat1 (V7 m ρ) c).arrAt 3 cfg1.N) := by
  have h52 : W8 m ρ c (Proc.devRef .tc main_v52) = (dat1 (V7 m ρ) c).arrAt 3 cfg1.N := W8_arr m ρ c 3
  show StableHlo.after hostOps2 (W8 m ρ c) (Proc.devRef .tc main_v64) = _
  after_results_simp
  rw [h52, W8_v3 m ρ c, W8_v6 m ρ c, W8_v33 m ρ c]
  unfold agg aggOf startCol
  rfl

/-- Its bias: the second bias vector as a row. -/
theorem V9_v65 (c : Dev nD) : V9 m ρ c main_v65 = shapeCast S1x128 (m ((c : Thread nD τ).loc main_arg7)) shapeCasts_S128_S1x128 := by
  show StableHlo.after hostOps2 (W8 m ρ c) (Proc.devRef .tc main_v65) = _
  after_results
  rw [W8_arg7 m ρ c]
  rfl

/-- Its weight column is as launched. -/
theorem V9_arg8 (c : Dev nD) : V9 m ρ c main_arg8 = m ((c : Thread nD τ).loc main_arg8) := by
  exact W9_arg8 m ρ c

/-- Its output constant, as a one-by-one array. -/
theorem V9_v66 (c : Dev nD) : V9 m ρ c main_v66 = shapeCast S1x1 (m ((c : Thread nD τ).loc main_arg9)) shapeCasts_S1_S1x1 := by
  show StableHlo.after hostOps2 (W8 m ρ c) (Proc.devRef .tc main_v66) = _
  after_results
  rw [W8_arg9 m ρ c]
  rfl

/-! ## The result -/

/-- The result: the third region's output column read as a vector. -/
theorem W11_v68 (c : Dev nD) : W11 m ρ c (Proc.devRef .tc main_v68) = shapeCast S50000 ((dat2 (V9 m ρ) c).arrAt 4 cfg2.N) shapeCasts_S50000x1_S50000 := by
  have h67 : W10 m ρ c (Proc.devRef .tc main_v67) = (dat2 (V9 m ρ) c).arrAt 4 cfg2.N := W10_arr m ρ c 4
  show StableHlo.after hostOps3 (W10 m ρ c) (Proc.devRef .tc main_v68) = _
  after_results
  rw [h67]
  rfl

end Cert.KernelIdeal.KHost1

end
-- ==== Proof.KVals.lean ====
/-
  The kernel program's small host values, read at an index: the graph numbers laid out as a column, the two halves of
  the first weight matrix, the table multiplied into the second half, a bias vector laid out as a row, the output
  constant as a one-by-one array, and the result column read back as a vector. Each is a reshape, a slice or one
  matrix product, so each entry is one entry of an argument (or one sum of products over the 768 shared columns).
-/
import proofs.«416491_j11553462026720_1_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.KVals

open Cert.KernelIdeal Cert.KernelIdeal.Gen Idealize.ShloMosaic Idealize.ShloMosaic.ValueIdx

variable {α : Type}

/-! ## Reshapes: the row-major position is kept -/

/-- The graph numbers as a column: row p holds the p-th number. -/
theorem col_apply (a3 : S50000.Idx → α) (p : Fin 50000) :
    shapeCast S50000x1 a3 shapeCasts_S50000_S50000x1 (ix2 p (0 : Fin 1)) = a3 (ix1 p) :=
  shapeCast_apply a3 _ _ _ (by
    rw [Shape.rowMajor_val_one, Shape.rowMajor_val_two]
    show p.val = p.val * 1 + 0
    omega)

/-- A 128-long vector as a row: column k of row 0 holds the k-th entry. -/
theorem row_apply (a5 : S128.Idx → α) (k : Fin 128) :
    shapeCast S1x128 a5 shapeCasts_S128_S1x128 (ix2 (0 : Fin 1) k) = a5 (ix1 k) :=
  shapeCast_apply a5 _ _ _ (by
    rw [Shape.rowMajor_val_one, Shape.rowMajor_val_two]
    show k.val = 0 * 128 + k.val
    omega)

/-- A one-entry vector as a one-by-one array. -/
theorem one_apply (a9 : S1.Idx → α) :
    shapeCast S1x1 a9 shapeCasts_S1_S1x1 (ix2 (0 : Fin 1) (0 : Fin 1)) = a9 (ix1 (0 : Fin 1)) :=
  shapeCast_apply a9 _ _ _ (by
    rw [Shape.rowMajor_val_one, Shape.rowMajor_val_two]
    show 0 = 0 * 1 + 0
    omega)

/-- A one-column array read as a vector: entry p is row p of the column. -/
theorem vec_apply (y : S50000x1.Idx → α) (p : Fin 50000) :
    shapeCast S50000 y shapeCasts_S50000x1_S50000 (ix1 p) = y (ix2 p (0 : Fin 1)) :=
  shapeCast_apply y _ _ _ (by
    rw [Shape.rowMajor_val_one, Shape.rowMajor_val_two]
    show p.val * 1 + 0 = p.val
    omega)

/-! ## The two halves of the first weight matrix -/

/-- Its first 768 rows. -/
theorem wa_apply (a4 : S1536x128.Idx → α) (k : Fin 768) (q : Fin 128) :
    extractStridedSlice S768x128 ![0, 0] a4 slices_S1536x128_S768x128_0_0 (ix2 k q) = a4 (ix2 (⟨k.val, by omega⟩ : Fin 1536) q) :=
  extractStridedSlice_apply _ a4 _ _ _ (fun a => by
    match a with
    | ⟨0, _⟩ => show k.val = 0 + k.val; omega
    | ⟨1, _⟩ => show q.val = 0 + q.val; omega)

/-- Its last 768 rows. -/
theorem wb_apply (a4 : S1536x128.Idx → α) (k : Fin 768) (q : Fin 128) :
    extractStridedSlice S768x128 ![768, 0] a4 slices_S1536x128_S768x128_768_0 (ix2 k q) = a4 (ix2 (⟨768 + k.val, by omega⟩ : Fin 1536) q) :=
  extractStridedSlice_apply _ a4 _ _ _ (fun a => by
    match a with
    | ⟨0, _⟩ => show 768 + k.val = 768 + k.val; rfl
    | ⟨1, _⟩ => show q.val = 0 + q.val; omega)

/-! ## The table multiplied into a [768, 128] matrix, on the host -/

theorem lhs_0 (i : S64x128.Idx) (q : dot_S64x768_S768x128_S64x128_1_0_0_1_n_n.contr.Idx) : (dot_S64x768_S768x128_S64x128_1_0_0_1_n_n.lhsIdx i q 0).val = (i 0).val := by
  unfold DotDims.lhsIdx
  rw [dif_neg (show ¬(0 : Fin S64x768.rank) ∈ dot_S64x768_S768x128_S64x128_1_0_0_1_n_n.lhsBatch by decide), dif_pos (show (0 : Fin S64x768.rank) ∈ dot_S64x768_S768x128_S64x128_1_0_0_1_n_n.lhsNonContracting by decide)]
  rfl
theorem lhs_1 (i : S64x128.Idx) (q : dot_S64x768_S768x128_S64x128_1_0_0_1_n_n.contr.Idx) : (dot_S64x768_S768x128_S64x128_1_0_0_1_n_n.lhsIdx i q 1).val = (q ⟨0, by decide⟩).val :=
  dot_S64x768_S768x128_S64x128_1_0_0_1_n_n.lhsIdx_val_of_single rfl i q
theorem rhs_0 (i : S64x128.Idx) (q : dot_S64x768_S768x128_S64x128_1_0_0_1_n_n.contr.Idx) : (dot_S64x768_S768x128_S64x128_1_0_0_1_n_n.rhsIdx i q 0).val = (q ⟨0, by decide⟩).val :=
  dot_S64x768_S768x128_S64x128_1_0_0_1_n_n.rhsIdx_val_of_single rfl i q
theorem rhs_1 (i : S64x128.Idx) (q : dot_S64x768_S768x128_S64x128_1_0_0_1_n_n.contr.Idx) : (dot_S64x768_S768x128_S64x128_1_0_0_1_n_n.rhsIdx i q 1).val = (i 1).val := by
  unfold DotDims.rhsIdx
  rw [dif_neg (show ¬(1 : Fin S768x128.rank) ∈ dot_S64x768_S768x128_S64x128_1_0_0_1_n_n.rhsBatch by decide), dif_pos (show (1 : Fin S768x128.rank) ∈ dot_S64x768_S768x128_S64x128_1_0_0_1_n_n.rhsNonContracting by decide)]
  rfl

/-- Entry (g, q) of the product: row g of the table against column q of the matrix, over the 768 shared indices. -/
theorem ew_apply (a2 : FVec Ideal S64x768 .f32) (w : FVec Ideal S768x128 .f32) (g : Fin 64) (q : Fin 128) :
    Host.dotGeneral dot_S64x768_S768x128_S64x128_1_0_0_1_n_n none a2 w (ix2 g q) = ∑ k : Fin 768, a2 (ix2 g k) * w (ix2 k q) := by
  simp only [Host.dotGeneral]
  rw [Ideal.dotGeneral_apply, ← Equiv.sum_comp (ValueIdx.contrEquiv1 dot_S64x768_S768x128_S64x128_1_0_0_1_n_n 768 rfl rfl).symm]
  refine Finset.sum_congr rfl fun k _ => ?_
  have hk := ValueIdx.contrEquiv1_symm_val dot_S64x768_S768x128_S64x128_1_0_0_1_n_n 768 rfl rfl k
  have el : dot_S64x768_S768x128_S64x128_1_0_0_1_n_n.lhsIdx (ix2 g q) ((ValueIdx.contrEquiv1 dot_S64x768_S768x128_S64x128_1_0_0_1_n_n 768 rfl rfl).symm k) = ix2 g k := funext fun a => Fin.ext (by
    match a with
    | ⟨0, _⟩ => exact lhs_0 _ _
    | ⟨1, _⟩ => exact (lhs_1 _ _).trans hk)
  have er : dot_S64x768_S768x128_S64x128_1_0_0_1_n_n.rhsIdx (ix2 g q) ((ValueIdx.contrEquiv1 dot_S64x768_S768x128_S64x128_1_0_0_1_n_n 768 rfl rfl).symm k) = ix2 k q := funext fun a => Fin.ext (by
    match a with
    | ⟨0, _⟩ => exact (rhs_0 _ _).trans hk
    | ⟨1, _⟩ => exact rhs_1 _ _)
  rw [el, er]

end Cert.KernelIdeal.KVals

end
-- ==== Proof.Spec.lean ====
/-
  The mathematics of the three dense stages, as plain sums over the extended reals, index by index over literal shapes.

  Stage one projects a node's 768 features and adds the row of a 64-row table chosen by the node's graph number: the
  row is picked by a sum against a 0/1 weight that is one exactly at that graph number. Stages two and three add a
  bias, clamp at zero and project again (the last one onto a single column, plus a constant).
  Two facts about sums carry the first stage: a sum against such a 0/1 weight is the one chosen term, and a sum over
  1536 indices is the sum over the first 768 plus the sum over the last 768. Neither needs a finite summand: on the
  extended reals 0 * y = 0 and 1 * y = y for every y, infinite ones included, and addition is commutative and associative.
-/
import Idealize.ShloMosaic.Lib.ValueIdx

noncomputable section

open scoped BigOperators

namespace Cert.Spec

open Idealize.ShloMosaic Idealize.ShloMosaic.ValueIdx

/-- A rank-2 array of extended reals. -/
abbrev Arr2 (n m : Nat) := (⟨2, ![n, m]⟩ : Shape).Idx → EReal

/-- The 0/1 weight of graph `g` for a node whose graph word is `b`: one exactly when the word is `g`. -/
def hot (b : BitVec 32) (g : Fin 64) : EReal := if b = BitVec.ofNat 32 g.val then 1 else 0

/-- Stage one at (p, q): the node's features against the first weight block, plus the 0/1-weighted sum of the
    64 table rows already multiplied by the second weight block. -/
def proj (x : Arr2 50000 768) (bcol : (⟨2, ![50000, 1]⟩ : Shape).Idx → BitVec 32) (wa : Arr2 768 128) (ew : Arr2 64 128)
    (p : Fin 50000) (q : Fin 128) : EReal :=
  (∑ k : Fin 768, x (ix2 p k) * wa (ix2 k q)) + ∑ g : Fin 64, hot (bcol (ix2 p (0 : Fin 1))) g * ew (ix2 g q)

/-- Stage two at (p, q): bias, clamp at zero, project. -/
def dense (h : Arr2 50000 128) (b : Arr2 1 128) (w : Arr2 128 128) (p : Fin 50000) (q : Fin 128) : EReal :=
  ∑ k : Fin 128, max (h (ix2 p k) + b (ix2 (0 : Fin 1) k)) 0 * w (ix2 k q)

/-- Stage three at p: bias, clamp at zero, project onto the one output column, add the output constant. -/
def head (h : Arr2 50000 128) (b : Arr2 1 128) (w : Arr2 128 1) (bo : Arr2 1 1) (p : Fin 50000) : EReal :=
  (∑ k : Fin 128, max (h (ix2 p k) + b (ix2 (0 : Fin 1) k)) 0 * w (ix2 k (0 : Fin 1))) + bo (ix2 (0 : Fin 1) (0 : Fin 1))

/-- A word below 64 is the word of exactly one graph number. -/
theorem hot_eq (b : BitVec 32) (hb : b.toNat < 64) (g : Fin 64) :
    hot b g = if g = ⟨b.toNat, hb⟩ then 1 else 0 := by
  unfold hot
  have hg : g.val < 64 := g.isLt
  by_cases h : g = ⟨b.toNat, hb⟩
  · rw [if_pos h, if_pos]
    subst h
    show b = BitVec.ofNat 32 b.toNat
    simp
  · rw [if_neg h, if_neg]
    intro e
    apply h
    apply Fin.ext
    have := congrArg BitVec.toNat e
    simp only [BitVec.toNat_ofNat] at this
    show g.val = b.toNat
    omega

/-- The weighted sum picks the chosen row: every other term is 0 * y = 0. -/
theorem sum_hot (b : BitVec 32) (hb : b.toNat < 64) (y : Fin 64 → EReal) :
    ∑ g : Fin 64, hot b g * y g = y ⟨b.toNat, hb⟩ := by
  rw [Finset.sum_eq_single (⟨b.toNat, hb⟩ : Fin 64)]
  · rw [hot_eq b hb, if_pos rfl, one_mul]
  · intro g _ hg
    rw [hot_eq b hb, if_neg hg, zero_mul]
  · intro h; exact absurd (Finset.mem_univ _) h

/-- A sum over 1536 indices is the sum over the first 768 plus the sum over the last 768. -/
theorem sum_split (f : Fin 1536 → EReal) :
    ∑ k : Fin 1536, f k = (∑ k : Fin 768, f ⟨k.val, by omega⟩) + ∑ k : Fin 768, f ⟨768 + k.val, by omega⟩ := by
  have h := Fin.sum_univ_add (a := 768) (b := 768) (fun k : Fin (768 + 768) => f ⟨k.val, by omega⟩)
  refine Eq.trans ?_ (h.trans ?_)
  · rfl
  · rfl

end Cert.Spec

end
-- ==== Proof.Reg0.lean ====
/-
  The first region's output array, whole. Grid point t holds rows 2000 t … 2000 t + 1999 of the node features and of
  the graph-number column, and both weight blocks whole; its body multiplies the feature rows into the first block and
  the rows' 0/1 graph weights into the second, and adds. Every output row lies in exactly one point's block, so the
  array after the region is, index by index, the first stage of Spec.lean of the arrays the region was entered with.
-/
import proofs.«416491_j11553462026720_1_alg».proof.Proof.Gen.KernelIdeal.Frame
import proofs.«416491_j11553462026720_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- The buffer contents the region is entered with: a parameter, as in the generated frame.
variable (V : (c : Dev nD) → (b : Ref sig .tc) → Buf (Elt Ideal) ((c : Thread nD τ).loc b))

/-! ## The 0/1 weight -/

/-- One entry of the 0/1 matrix: the one-bit answer to "is the node's graph word the column's number", widened to a
    word and read as a signed integer, is the extended real 1 when the two agree and 0 when they do not. -/
theorem hot_entry (b : BitVec 32) (g : Fin 64) :
    (FloatOps.sitofp (F := Ideal) .f32 ((IntOp.cmpi .eq b (BitVec.ofNat 32 g.val)).setWidth 32) : EReal)
      = Cert.Spec.hot b g := by
  unfold Cert.Spec.hot
  by_cases h : b = BitVec.ofNat 32 g.val
  · rw [if_pos h]
    have e : IntOp.cmpi .eq b (BitVec.ofNat 32 g.val) = 1#1 := by
      subst h; simp [IntOp.cmpi]
    rw [e]
    show (((((1#1 : BitVec 1).setWidth 32).toInt : ℤ) : ℝ) : EReal) = 1
    rw [show ((1#1 : BitVec 1).setWidth 32).toInt = 1 from by decide]
    norm_cast
  · rw [if_neg h]
    have e : IntOp.cmpi .eq b (BitVec.ofNat 32 g.val) = 0#1 := by
      show BitVec.ofBool (b == BitVec.ofNat 32 g.val) = 0#1
      rw [beq_eq_false_iff_ne.mpr h]; rfl
    rw [e]
    show (((((0#1 : BitVec 1).setWidth 32).toInt : ℤ) : ℝ) : EReal) = 0
    rw [show ((0#1 : BitVec 1).setWidth 32).toInt = 0 from by decide]
    norm_cast

/-- The 0/1 matrix at row p, column g: the row's graph word (column 0 of the block of graph numbers, repeated
    along the 64 columns) compared with the column's own number. -/
theorem onehot_apply (x5 : Vec Ideal S2000x1 .i32) (hc : S2000x1.ShapeCasts S2000x1) (hb : S2000x1.Broadcasts S2000x64)
    (hi : S2000x64.Iotas .tc 32 [1]) (h32 : 1 < 32) (hbits : FTy.bits .bf16 < FTy.bits .f32) (p : Fin 2000) (g : Fin 64) :
    (truncf .bf16 (sitofp (F := Ideal) .f32 (extui 32 (cmpi .eq (broadcastTo S2000x64 (shapeCast S2000x1 x5 hc) hb)
        (iota .tc S2000x64 32 [1] hi)) h32)) hbits : FVec Ideal S2000x64 .bf16) (ix2 p g)
      = Cert.Spec.hot (x5 (ix2 p (0 : Fin 1))) g := by
  show FloatOps.sitofp (F := Ideal) .f32 ((IntOp.cmpi .eq (broadcastTo S2000x64 (shapeCast S2000x1 x5 hc) hb (ix2 p g))
      (iota .tc S2000x64 32 [1] hi (ix2 p g))).setWidth 32) = _
  rw [shapeCast_self, iota_single_apply,
    broadcastTo_apply x5 hb (ix2 p g) (ix2 p (0 : Fin 1)) (fun a => match a with
      | ⟨0, _⟩ => rfl
      | ⟨1, _⟩ => rfl)]
  exact hot_entry _ g

/-! ## The two products, read at an index -/

/-- Left operand's row coordinate at an output index of the features' product: the output's row. -/
theorem lhsA_0 (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
/-- Its column coordinate: the summation index. -/
theorem lhsA_1 (i : S2000x128.Idx) (q : dot_S2000x768_S768x128_S2000x128_1_0_0_1_n_n.contr.Idx) :
    (dot_S2000x768_S768x128_S2000x128_1_0_0_1_n_n.lhsIdx i q 1).val = (q ⟨0, by decide⟩).val :=
  dot_S2000x768_S768x128_S2000x128_1_0_0_1_n_n.lhsIdx_val_of_single rfl i q
/-- Right operand's row coordinate: the summation index. -/
theorem rhsA_0 (i : S2000x128.Idx) (q : dot_S2000x768_S768x128_S2000x128_1_0_0_1_n_n.contr.Idx) :
    (dot_S2000x768_S768x128_S2000x128_1_0_0_1_n_n.rhsIdx i q 0).val = (q ⟨0, by decide⟩).val :=
  dot_S2000x768_S768x128_S2000x128_1_0_0_1_n_n.rhsIdx_val_of_single rfl i q
/-- Its column coordinate: the output's column. -/
theorem rhsA_1 (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The features' product into a zero accumulator, at (p, q): the sum over the 768 features of row p of the left
    block times column q of the right one. -/
theorem mmA_apply (l : FVec Ideal S2000x768 .bf16) (r : FVec Ideal S768x128 .bf16) (p : Fin 2000) (q : Fin 128) :
    matmul (F := Ideal) dot_S2000x768_S768x128_S2000x128_1_0_0_1_n_n none l r (constant (F := Ideal) S2000x128 .f32 0x00000000#32) (ix2 p q)
      = ∑ k : Fin 768, l (ix2 p k) * r (ix2 k q) := by
  simp only [matmul]
  rw [Ideal.matmul_constant_zero_apply, ← Equiv.sum_comp (contrEquiv1 dot_S2000x768_S768x128_S2000x128_1_0_0_1_n_n 768 rfl rfl).symm]
  refine Finset.sum_congr rfl fun k _ => ?_
  have hk := contrEquiv1_symm_val dot_S2000x768_S768x128_S2000x128_1_0_0_1_n_n 768 rfl rfl k
  have el : dot_S2000x768_S768x128_S2000x128_1_0_0_1_n_n.lhsIdx (ix2 p q) ((contrEquiv1 dot_S2000x768_S768x128_S2000x128_1_0_0_1_n_n 768 rfl rfl).symm k) = ix2 p k := funext fun a => Fin.ext (by
    match a with
    | ⟨0, _⟩ => exact lhsA_0 _ _
    | ⟨1, _⟩ => exact (lhsA_1 _ _).trans hk)
  have er : dot_S2000x768_S768x128_S2000x128_1_0_0_1_n_n.rhsIdx (ix2 p q) ((contrEquiv1 dot_S2000x768_S768x128_S2000x128_1_0_0_1_n_n 768 rfl rfl).symm k) = ix2 k q := funext fun a => Fin.ext (by
    match a with
    | ⟨0, _⟩ => exact (rhsA_0 _ _).trans hk
    | ⟨1, _⟩ => exact rhsA_1 _ _)
  rw [el, er]

/-- Left operand's row coordinate at an output index of the weights' product: the output's row. -/
theorem lhsB_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- Its column coordinate: the summation index. -/
theorem lhsB_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- Right operand's row coordinate: the summation index. -/
theorem rhsB_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- Its column coordinate: the output's column. -/
theorem rhsB_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The weights' product into a zero accumulator, at (p, q): the sum over the 64 graph numbers of row p of the 0/1
    matrix times column q of the table. -/
theorem mmB_apply (l : FVec Ideal S2000x64 .bf16) (r : FVec Ideal S64x128 .bf16) (p : Fin 2000) (q : Fin 128) :
    matmul (F := Ideal) dot_S2000x64_S64x128_S2000x128_1_0_0_1_n_n none l r (constant (F := Ideal) S2000x128 .f32 0x00000000#32) (ix2 p q)
      = ∑ g : Fin 64, l (ix2 p g) * r (ix2 g q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhsB_0 _ _
    | ⟨1, _⟩ => exact (lhsB_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The body's arithmetic at an index -/

/-- What the body stores at row p, column q of its output block, from the four blocks it loaded: the features' row
    against the first weight block, plus the 0/1-weighted sum of the table's rows. The format changes are the
    identity on extended reals and a cast to the same shape changes nothing. -/
theorem pay_apply (x0 : Vec Ideal S2000x768 .f32) (x2 : Vec Ideal S768x128 .f32) (x5 : Vec Ideal S2000x1 .i32)
    (x13 : Vec Ideal S64x128 .f32) (p : Fin 2000) (q : Fin 128) :
    k0_pay1 (F := Ideal) x0 x2 x5 x13 (ix2 p q)
      = (∑ k : Fin 768, x0 (ix2 p k) * x2 (ix2 k q))
        + ∑ g : Fin 64, Cert.Spec.hot (x5 (ix2 p (0 : Fin 1))) g * x13 (ix2 g q) := by
  unfold k0_pay1
  dsimp only
  refine congrArg₂ (· + ·) ?_ ?_
  · refine (mmA_apply _ _ p q).trans ?_
    refine Finset.sum_congr rfl fun k _ => ?_
    refine congrArg₂ (· * ·) rfl ?_
    exact congrFun (shapeCast_self x2 _) (ix2 k q)
  · refine (mmB_apply _ _ p q).trans ?_
    refine Finset.sum_congr rfl fun g _ => ?_
    refine congrArg₂ (· * ·) (onehot_apply x5 _ _ _ _ _ p g) ?_
    exact congrFun (shapeCast_self x13 _) (ix2 g q)

/-! ## From blocks to the array -/

/-- The two zero offsets of a whole-block access, spelt as a constant function. -/
theorem hz : (![0, 0] : Fin 2 → Nat) = fun _ => 0 := funext fun a => by fin_cases a <;> rfl

/-- Stage one of the arrays the region was entered with, as one function of the output array's index. -/
abbrev stage1 (c : Dev nD) : S50000x128.Idx → EReal :=
  fun i => Cert.Spec.proj (V c main_arg0) (V c main_v34) (V c main_v35) (V c main_v37)
    ⟨(i 0).val, idx2_lt0 i⟩ ⟨(i 1).val, idx2_lt1 i⟩

/-- The index maps, decided once over the 25 grid points: the features, the graph numbers and the output move one
    row block per point and stay in column block 0; the two weight blocks stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point is below 25. -/
theorem t_lt (t : Fin cfg0.N) : t.val < 25 := lt_of_lt_of_eq t.isLt N_0

/-- Row p of point t's row block is row 2000 t + p of the array. -/
theorem row_lt (t : Fin cfg0.N) (p : Fin 2000) : 2000 * t.val + p.val < 50000 := by
  have := t_lt t; have := p.isLt; omega

/-- The features' block at point t is rows 2000 t … 2000 t + 1999 of the features. -/
theorem blk0_apply (c : Dev nD) (t : Fin cfg0.N) (p : Fin 2000) (k : Fin 768) :
    (iblk0 V c 0 t : Vec Ideal S2000x768 .f32) (ix2 p k)
      = (V c main_arg0 : S50000x768.Idx → EReal) (ix2 ⟨2000 * t.val + p.val, row_lt t p⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 768 + 1 * k.val = k.val; rw [e1]; omega

/-- The graph numbers' block at point t is the same rows of the one-column array of graph numbers. -/
theorem blk1_apply (c : Dev nD) (t : Fin cfg0.N) (p : Fin 2000) :
    (iblk0 V c 1 t : Vec Ideal S2000x1 .i32) (ix2 p (0 : Fin 1))
      = (V c main_v34 : S50000x1.Idx → BitVec 32) (ix2 ⟨2000 * t.val + p.val, row_lt t p⟩ (0 : Fin 1)) := by
  obtain ⟨-, -, e2, e3, -⟩ := idx_facts t
  unfold iblk0
  rw [View.read_apply]
  show V c main_v34 _ = V c main_v34 _
  congr 1
  funext a
  apply Fin.ext
  match a with
  | ⟨0, _⟩ => show win0_1.index t (0 : Fin 2) * 2000 + 1 * p.val = 2000 * t.val + p.val; rw [e2]; omega
  | ⟨1, _⟩ => show win0_1.index t (1 : Fin 2) * 1 + 1 * 0 = 0; rw [e3]

/-- The first weight block is whole at every point. -/
theorem blk2_apply (c : Dev nD) (t : Fin cfg0.N) (k : Fin 768) (q : Fin 128) :
    (iblk0 V c 2 t : Vec Ideal S768x128 .f32) (ix2 k q) = (V c main_v35 : S768x128.Idx → EReal) (ix2 k q) := by
  obtain ⟨-, -, -, -, e4, e5, -⟩ := idx_facts t
  unfold iblk0
  rw [View.read_apply]
  show V c main_v35 _ = V c main_v35 _
  congr 1
  funext a
  apply Fin.ext
  match a with
  | ⟨0, _⟩ => show win0_2.index t (0 : Fin 2) * 768 + 1 * k.val = k.val; rw [e4]; omega
  | ⟨1, _⟩ => show win0_2.index t (1 : Fin 2) * 128 + 1 * q.val = q.val; rw [e5]; omega

/-- The table of 64 rows is whole at every point. -/
theorem blk3_apply (c : Dev nD) (t : Fin cfg0.N) (g : Fin 64) (q : Fin 128) :
    (iblk0 V c 3 t : Vec Ideal S64x128 .f32) (ix2 g q) = (V c main_v37 : S64x128.Idx → EReal) (ix2 g q) := by
  obtain ⟨-, -, -, -, -, -, e6, e7, -⟩ := idx_facts t
  unfold iblk0
  rw [View.read_apply]
  show V c main_v37 _ = V c main_v37 _
  congr 1
  funext a
  apply Fin.ext
  match a with
  | ⟨0, _⟩ => show win0_3.index t (0 : Fin 2) * 64 + 1 * g.val = g.val; rw [e6]; omega
  | ⟨1, _⟩ => show win0_3.index t (1 : Fin 2) * 128 + 1 * q.val = q.val; rw [e7]; omega

/-- Entry (p, q) of point t's output block sits at row 2000 t + p, column q of the output array. -/
theorem emb4 (t : Fin cfg0.N) (p : Fin 2000) (q : Fin 128) :
    (((cfg0.win 4).blk t).view.emb (ix2 p q) : S50000x128.Idx) = ix2 ⟨2000 * t.val + p.val, row_lt t p⟩ q := by
  obtain ⟨-, -, -, -, -, -, -, -, e8, e9⟩ := idx_facts t
  funext a
  apply Fin.ext
  match a with
  | ⟨0, _⟩ => show win0_4.index t (0 : Fin 2) * 2000 + 1 * p.val = 2000 * t.val + p.val; rw [e8]; omega
  | ⟨1, _⟩ => show win0_4.index t (1 : Fin 2) * 128 + 1 * q.val = q.val; rw [e9]; omega

/-- What point t writes back is its block of stage one. -/
theorem flushed_eq (c : Dev nD) (t : Fin cfg0.N) :
    (dat0 (F := Ideal) V c).flushed 4 t = ((cfg0.win 4).blk t).view.read (Elt Ideal) (stage1 V c) := by
  show (cfg0.win 4).cut (grid0.coords t) ((dat0 (F := Ideal) V c).after 4 t) = _
  rw [after0_4]
  unfold out0_4
  rw [View.canon_unit_zero hz]
  simp only [View.ld_unit_zero (S := S2000x768) hz, View.ld_unit_zero (S := S768x128) hz,
    View.ld_unit_zero (S := S2000x1) hz, View.ld_unit_zero (S := S64x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 2 t) (iblk0 V c 1 t) (iblk0 V c 3 t) (ix2 p q)
    = stage1 V c (((cfg0.win 4).blk t).view.emb (ix2 p q))
  rw [emb4 t p q]
  refine (pay_apply (iblk0 V c 0 t) (iblk0 V c 2 t) (iblk0 V c 1 t) (iblk0 V c 3 t) p q).trans ?_
  show _ = Cert.Spec.proj (V c main_arg0) (V c main_v34) (V c main_v35) (V c main_v37) ⟨2000 * t.val + p.val, row_lt t p⟩ q
  unfold Cert.Spec.proj
  refine congrArg₂ (· + ·) ?_ ?_
  · refine Finset.sum_congr rfl fun k _ => ?_
    exact congrArg₂ (· * ·) (blk0_apply V c t p k) (blk2_apply V c t k q)
  · refine Finset.sum_congr rfl fun g _ => ?_
    exact congrArg₂ (· * ·) (congrArg (fun b => Cert.Spec.hot b g) (blk1_apply V c t p)) (blk3_apply V c t g q)

/-- An index of the output array is in point t's block exactly when each coordinate is in the block's range. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v38).slice (win0_4.rect t)).set ↔ _
  rw [View.set_slice_whole, Rect.mem_set_unit]
  exact Iff.rfl

/-- Every row lies in the block of the point numbered by the row's quotient by 2000: 25 blocks of 2000 rows are
    the 50000 rows. -/
theorem cover (i : S50000x128.Idx) :
    ∃ t : Fin cfg0.N, (cfg0.win 4).flush t = true ∧ i ∈ ((cfg0.win 4).blk t).view.set := by
  have hi0 : (i 0).val < 50000 := idx2_lt0 i
  have hi1 : (i 1).val < 128 := idx2_lt1 i
  have hN : cfg0.N = 25 := N_0
  have ht : (i 0).val / 2000 < cfg0.N := by rw [hN]; omega
  obtain ⟨-, -, -, -, -, -, -, -, e8, e9⟩ := idx_facts ⟨(i 0).val / 2000, ht⟩
  refine ⟨⟨(i 0).val / 2000, ht⟩, flush0_4 _, ?_⟩
  rw [mem_blk]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e8]
    show (i 0).val / 2000 * 2000 ≤ (i 0).val ∧ (i 0).val < (i 0).val / 2000 * 2000 + 2000
    omega
  | ⟨1, _⟩ =>
    show win0_4.index ⟨(i 0).val / 2000, ht⟩ (1 : Fin 2) * 128 ≤ (i 1).val
      ∧ (i 1).val < win0_4.index ⟨(i 0).val / 2000, ht⟩ (1 : Fin 2) * 128 + 128
    rw [e9]
    omega

/-- The array the first region leaves in its output window: stage one of the arrays it was entered with. -/
theorem arr (c : Dev nD) :
    (dat0 (F := Ideal) V c).arrAt 4 cfg0.N
      = fun i : S50000x128.Idx => Cert.Spec.proj (V c main_arg0) (V c main_v34) (V c main_v35) (V c main_v37)
          ⟨(i 0).val, idx2_lt0 i⟩ ⟨(i 1).val, idx2_lt1 i⟩ :=
  (dat0 (F := Ideal) V c).arrAt_eq_of_cover 4 (stage1 V c) (fun t _ => flushed_eq V c t) (cover)

end Cert.KernelIdeal.Reg0

end
-- ==== Proof.Reg1.lean ====
/-
  The second region's output array, whole. Grid point t holds rows 2000 t … 2000 t + 1999 of the aggregated node
  array, the bias row and the weight matrix whole; its body adds the bias, clamps at zero and multiplies into the
  weight matrix. Every output row lies in exactly one point's block, so the array after the region is, index by index,
  the second stage of Spec.lean of the arrays the region was entered with.
-/
import proofs.«416491_j11553462026720_1_alg».proof.Proof.Gen.KernelIdeal.Frame
import proofs.«416491_j11553462026720_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open scoped BigOperators

/-! ## The body's arithmetic at one entry of a block -/

/-- The two zero offsets of a whole-block access, as the constant function. -/
theorem hz : (![0, 0] : Fin 2 → Nat) = fun _ => 0 := funext fun a => by fin_cases a <;> rfl

/-- The contraction of the body's product runs over the 128 columns of its left operand: at output entry (p, q) and
    contraction index k the left operand is read at row p … -/
theorem lhs_dense_0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and column k, -/
theorem lhs_dense_1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
/-- the right operand at row k … -/
theorem rhs_dense_0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
/-- … and column q. -/
theorem rhs_dense_1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The bias row spread over the 2000 rows of a block reads, at (p, k), the row's entry k. -/
theorem bias_apply (b : Vec Ideal S1x128 .f32) (p : Fin 2000) (k : Fin 128) :
    broadcastTo S2000x128 (shapeCast S1x128 b shapeCasts_S1x128_S1x128) broadcasts_S1x128_S2000x128 (ix2 p k) = b (ix2 (0 : Fin 1) k) := by
  rw [shapeCast_self]
  exact broadcastTo_apply b broadcasts_S1x128_S2000x128 (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])

/-- The left operand of the body's product at (p, k): the block's entry plus the bias entry, clamped at zero. The
    changes of float format are the identity on the extended reals and the zero word is the number 0. -/
theorem act_apply (h : Vec Ideal S2000x128 .f32) (b : Vec Ideal S1x128 .f32) (p : Fin 2000) (k : Fin 128) :
    (truncf .bf16 (maximumf (addf (shapeCast S2000x128 h shapeCasts_S2000x128_S2000x128)
        (broadcastTo S2000x128 (shapeCast S1x128 b shapeCasts_S1x128_S1x128) broadcasts_S1x128_S2000x128))
      (broadcast S2000x128 (Scalar.ofBits (F := Ideal) .f32 0x00000000#32))) bitsLt_bf16_f32 : FVec Ideal S2000x128 .bf16) (ix2 p k)
      = max (h (ix2 p k) + b (ix2 (0 : Fin 1) k)) 0 := by
  rw [truncf_apply, maximumf_apply, addf_apply, shapeCast_self, bias_apply, broadcast_apply]
  show max _ (Ideal.ofBits .f32 0x00000000#32) = _
  rw [Ideal.ofBits_zero_f32]

/-- THE BODY'S RESULT AT (p, q): the sum over k of the clamped, biased entry (p, k) of the node block times entry
    (k, q) of the weight matrix. The product into a zero accumulator is the plain sum over its contraction index,
    re-indexed by the contracted column. -/
theorem pay_apply (h : Vec Ideal S2000x128 .f32) (b : Vec Ideal S1x128 .f32) (w : Vec Ideal S128x128 .f32) (p : Fin 2000) (q : Fin 128) :
    k1_pay1 (F := Ideal) h b w (ix2 p q) = ∑ k : Fin 128, max (h (ix2 p k) + b (ix2 (0 : Fin 1) k)) 0 * w (ix2 k q) := by
  unfold k1_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_dense_0 _ _
    | ⟨1, _⟩ => exact (lhs_dense_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er, act_apply, truncf_apply]

/-! ## The windows' blocks, read off the arrays the region was entered with -/

-- The buffer contents the region is entered with: a parameter, as in the generated frame.
variable (V : (c : Dev nD) → (b : Ref sig .tc) → Buf (Elt Ideal) ((c : Thread nD τ).loc b))

/-- Which block each window holds at grid point t, decided over the 25 points: the node array's and the output's block
    is row block t, the bias row and the weight matrix are their one whole block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the node block at point t is entry (2000 t + p, k) of the node array. -/
theorem nodes_apply (c : Dev nD) (t : Fin cfg1.N) (p : Fin 2000) (k : Fin 128) (i : S50000x128.Idx)
    (h0 : (i 0).val = t.val * 2000 + p.val) (h1 : (i 1).val = k.val) :
    (iblk1 V c 0 t : Vec Ideal S2000x128 .f32) (ix2 p k) = (V c main_v50 : S50000x128.Idx → EReal) i := by
  obtain ⟨e0, e1, -⟩ := idx_facts t
  unfold iblk1
  rw [View.read_apply]
  show V c main_v50 _ = V c main_v50 _
  congr 1
  funext a
  apply Fin.ext
  match a with
  | ⟨0, _⟩ => show win1_0.index t (0 : Fin 2) * 2000 + 1 * p.val = (i 0).val; omega
  | ⟨1, _⟩ => show win1_0.index t (1 : Fin 2) * 128 + 1 * k.val = (i 1).val; omega

/-- The bias window's block at any point is the bias row itself. -/
theorem bias_blk_apply (c : Dev nD) (t : Fin cfg1.N) (k : Fin 128) :
    (iblk1 V c 1 t : Vec Ideal S1x128 .f32) (ix2 (0 : Fin 1) k) = (V c main_v51 : S1x128.Idx → EReal) (ix2 (0 : Fin 1) k) := by
  obtain ⟨-, -, e0, e1, -⟩ := idx_facts t
  unfold iblk1
  rw [View.read_apply]
  show V c main_v51 _ = V c main_v51 _
  congr 1
  funext a
  apply Fin.ext
  match a with
  | ⟨0, _⟩ => show win1_1.index t (0 : Fin 2) * 1 + 1 * 0 = 0; omega
  | ⟨1, _⟩ => show win1_1.index t (1 : Fin 2) * 128 + 1 * k.val = k.val; omega

/-- The weight window's block at any point is the weight matrix itself. -/
theorem weight_blk_apply (c : Dev nD) (t : Fin cfg1.N) (k q : Fin 128) :
    (iblk1 V c 2 t : Vec Ideal S128x128 .f32) (ix2 k q) = (V c main_arg6 : S128x128.Idx → EReal) (ix2 k q) := by
  obtain ⟨-, -, -, -, e0, e1, -⟩ := idx_facts t
  unfold iblk1
  rw [View.read_apply]
  show V c main_arg6 _ = V c main_arg6 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-! ## From the blocks to the array -/

/-- Stage two of the arrays the region was entered with, as a function of the output array's index. -/
abbrev stage2 (c : Dev nD) : S50000x128.Idx → EReal := fun i =>
  Cert.Spec.dense (V c main_v50) (V c main_v51) (V c main_arg6) ⟨(i 0).val, idx2_lt0 i⟩ ⟨(i 1).val, idx2_lt1 i⟩

/-- WHAT POINT t WRITES BACK is block t of stage two: the body's result at (p, q) of the three blocks is the stage-two
    sum at (2000 t + p, q), term by term. -/
theorem flushed_eq (c : Dev nD) (t : Fin cfg1.N) :
    (dat1 (F := Ideal) V c).flushed 3 t = ((cfg1.win 3).blk t).view.read (Elt Ideal) (stage2 V c) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x128) hz]
  obtain ⟨-, -, -, -, -, -, e0, e1⟩ := idx_facts t
  funext j
  obtain ⟨p, q, rfl⟩ : ∃ (p : Fin 2000) (q : Fin 128), j = ix2 p q := ⟨j 0, j 1, eq_ix2 j⟩
  refine (pay_apply (iblk1 V c 0 t) (iblk1 V c 1 t) (iblk1 V c 2 t) p q).trans ?_
  show _ = stage2 V c (((cfg1.win 3).blk t).view.emb (ix2 p q))
  unfold stage2 Cert.Spec.dense
  refine Finset.sum_congr rfl fun k _ => ?_
  rw [bias_blk_apply V c t k, weight_blk_apply V c t k]
  rw [nodes_apply V c t p k (ix2 ⟨((((cfg1.win 3).blk t).view.emb (ix2 p q)) 0).val, idx2_lt0 _⟩ k)
    (by show win1_3.index t (0 : Fin 2) * 2000 + 1 * p.val = t.val * 2000 + p.val; omega) rfl]
  have hq : (⟨((((cfg1.win 3).blk t).view.emb (ix2 p q)) 1).val, idx2_lt1 _⟩ : Fin 128) = q :=
    Fin.ext (by show win1_3.index t (1 : Fin 2) * 128 + 1 * q.val = q.val; omega)
  rw [hq]

/-- An index of the output array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v52).slice (win1_3.rect t)).set ↔ _
  rw [View.set_slice_whole, Rect.mem_set_unit]
  exact Iff.rfl

/-- Every row lies in a block: row r is in the block of point r / 2000 (25 points of 2000 rows are the 50000 rows),
    and every point writes its block back. -/
theorem cover (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have ht : (i 0).val / 2000 < cfg1.N := by
    show (i 0).val / 2000 < grid1.N
    rw [N_1]; omega
  obtain ⟨-, -, -, -, -, -, e0, e1⟩ := idx_facts ⟨(i 0).val / 2000, ht⟩
  have e0' : win1_3.index ⟨(i 0).val / 2000, ht⟩ (0 : Fin 2) = (i 0).val / 2000 := e0
  refine ⟨⟨(i 0).val / 2000, ht⟩, flush1_3 _, ?_⟩
  rw [mem_blk]
  intro a
  match a with
  | ⟨0, _⟩ => show win1_3.index ⟨(i 0).val / 2000, _⟩ (0 : Fin 2) * 2000 ≤ (i 0).val ∧ (i 0).val < win1_3.index ⟨(i 0).val / 2000, _⟩ (0 : Fin 2) * 2000 + 2000; omega
  | ⟨1, _⟩ => show win1_3.index ⟨(i 0).val / 2000, _⟩ (1 : Fin 2) * 128 ≤ (i 1).val ∧ (i 1).val < win1_3.index ⟨(i 0).val / 2000, _⟩ (1 : Fin 2) * 128 + 128; omega

/-- The array the second region leaves in its output window: stage two of the arrays it was entered with. -/
theorem arr (c : Dev nD) :
    (dat1 (F := Ideal) V c).arrAt 3 cfg1.N
      = fun i : S50000x128.Idx => Cert.Spec.dense (V c main_v50) (V c main_v51) (V c main_arg6)
          ⟨(i 0).val, idx2_lt0 i⟩ ⟨(i 1).val, idx2_lt1 i⟩ :=
  (dat1 (F := Ideal) V c).arrAt_eq_of_cover 3 (stage2 V c) (fun t _ => flushed_eq V c t) cover

end Cert.KernelIdeal.Reg1

end
-- ==== Proof.Reg2.lean ====
/-
  The third region's output array, whole. Grid point t holds rows 2000 t … 2000 t + 1999 of the aggregated node
  array, the bias row, the weight column and the output constant whole; its body adds the bias, clamps at zero,
  multiplies into the weight column and adds the constant. Every output row lies in exactly one point's block, so the
  column after the region is, index by index, the third stage of Spec.lean of the arrays the region was entered with.
-/
import proofs.«416491_j11553462026720_1_alg».proof.Proof.Gen.KernelIdeal.Frame
import proofs.«416491_j11553462026720_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open scoped BigOperators

/-- The zero offset of a whole-block access. -/
theorem hz : (![0, 0] : Fin 2 → Nat) = fun _ => 0 := funext fun a => by fin_cases a <;> rfl

theorem lhs_mm_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_mm_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs_mm_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs_mm_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- The product into the zero splat at row p: the sum over the 128 contracted positions. -/
theorem mm_apply (a : FVec Ideal S2000x128 .bf16) (b : FVec Ideal S128x1 .bf16) (p : Fin 2000) :
    FloatOps.matmul dot_S2000x128_S128x1_S2000x1_1_0_0_1_n_n none a b (constant S2000x1 .f32 0x00000000#32) (ix2 p (0 : Fin 1))
      = ∑ k : Fin 128, a (ix2 p k) * b (ix2 k (0 : Fin 1)) := by
  rw [Ideal.matmul_constant_zero_apply, ← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 p (0 : Fin 1)) ((ValueIdx.contrEquiv1 dot_S2000x128_S128x1_S2000x1_1_0_0_1_n_n 128 rfl rfl).symm k) = ix2 p k := funext fun ax => Fin.ext (by
    match ax with
    | ⟨0, _⟩ => exact lhs_mm_0 _ _
    | ⟨1, _⟩ => exact (lhs_mm_1 _ _).trans hk)
  have er : dot_S2000x128_S128x1_S2000x1_1_0_0_1_n_n.rhsIdx (ix2 p (0 : Fin 1)) ((ValueIdx.contrEquiv1 dot_S2000x128_S128x1_S2000x1_1_0_0_1_n_n 128 rfl rfl).symm k) = ix2 k (0 : Fin 1) := funext fun ax => Fin.ext (by
    match ax with
    | ⟨0, _⟩ => exact (rhs_mm_0 _ _).trans hk
    | ⟨1, _⟩ => exact rhs_mm_1 _ _)
  rw [el, er]

/-- The body's arithmetic at row p of a block: bias, clamp at zero, the product with the weight column, the constant. -/
theorem pay_apply (x0 : Vec Ideal S2000x128 .f32) (x1 : Vec Ideal S1x128 .f32) (x2 : Vec Ideal S128x1 .f32) (x3 : Vec Ideal S1x1 .f32)
    (p : Fin 2000) :
    k2_pay1 (F := Ideal) x0 x1 x2 x3 (ix2 p (0 : Fin 1))
      = (∑ k : Fin 128, max (x0 (ix2 p k) + x1 (ix2 (0 : Fin 1) k)) 0 * x2 (ix2 k (0 : Fin 1))) + x3 (ix2 (0 : Fin 1) (0 : Fin 1)) := by
  unfold k2_pay1
  rw [addf_apply, shapeCast_self, shapeCast_self, shapeCast_self]
  refine congrArg₂ (· + ·) ?_ ?_
  · refine (mm_apply _ _ p).trans ?_
    refine Finset.sum_congr rfl fun k _ => ?_
    rw [truncf_apply, truncf_apply, maximumf_apply, addf_apply, broadcast_apply, broadcastTo_1b_ab_apply]
    show max (x0 (ix2 p k) + x1 (ix2 (0 : Fin 1) k)) (Ideal.ofBits .f32 0x00000000#32) * x2 (ix2 k (0 : Fin 1)) = _
    rw [Ideal.ofBits_zero_f32]
  · exact broadcastTo_1b_ab_apply x3 _ p (0 : Fin 1)

-- The buffer contents the region is entered with: a parameter, as in the generated frame.
variable (V : (c : Dev nD) → (b : Ref sig .tc) → Buf (Elt Ideal) ((c : Thread nD τ).loc b))

/-- The index maps over the grid: the node window and the output window sit at row block t, the bias row, the weight
    column and the constant at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of point t's block of the node array is row 2000 t + p of the array. -/
theorem blk0_apply (c : Dev nD) (t : Fin cfg2.N) (p : Fin 2000) (k : Fin 128) (r : Fin 50000)
    (hr : r.val = 2000 * t.val + p.val) :
    (iblk2 V c 0 t : Vec Ideal S2000x128 .f32) (ix2 p k) = (V c main_v64 : S50000x128.Idx → EReal) (ix2 r k) := by
  obtain ⟨e0, e1, -⟩ := idx_facts t
  unfold iblk2
  rw [View.read_apply]
  show V c main_v64 (((cfg2.win 0).blk t).view.emb (ix2 p k)) = V c main_v64 (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Every point's block of the bias row is the whole row. -/
theorem blk1_eq (c : Dev nD) (t : Fin cfg2.N) :
    (iblk2 V c 1 t : Vec Ideal S1x128 .f32) = (V c main_v65 : S1x128.Idx → EReal) := by
  obtain ⟨-, -, e0, e1, -⟩ := idx_facts t
  funext x
  unfold iblk2
  rw [View.read_apply]
  show V c main_v65 (((cfg2.win 1).blk t).view.emb x) = V c main_v65 x
  refine congrArg _ (funext fun a => Fin.ext ?_)
  match a with
  | ⟨0, _⟩ => show win2_1.index t (0 : Fin 2) * 1 + 1 * (x 0).val = (x 0).val; omega
  | ⟨1, _⟩ => show win2_1.index t (1 : Fin 2) * 128 + 1 * (x 1).val = (x 1).val; omega

/-- Every point's block of the weight column is the whole column. -/
theorem blk2_eq (c : Dev nD) (t : Fin cfg2.N) :
    (iblk2 V c 2 t : Vec Ideal S128x1 .f32) = (V c main_arg8 : S128x1.Idx → EReal) := by
  obtain ⟨-, -, -, -, e0, e1, -⟩ := idx_facts t
  funext x
  unfold iblk2
  rw [View.read_apply]
  show V c main_arg8 (((cfg2.win 2).blk t).view.emb x) = V c main_arg8 x
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 1 + 1 * (x 1).val = (x 1).val; omega

/-- Every point's block of the output constant is the constant. -/
theorem blk3_eq (c : Dev nD) (t : Fin cfg2.N) :
    (iblk2 V c 3 t : Vec Ideal S1x1 .f32) = (V c main_v66 : S1x1.Idx → EReal) := by
  obtain ⟨-, -, -, -, -, -, e0, e1, -⟩ := idx_facts t
  funext x
  unfold iblk2
  rw [View.read_apply]
  show V c main_v66 (((cfg2.win 3).blk t).view.emb x) = V c main_v66 x
  refine congrArg _ (funext fun a => Fin.ext ?_)
  match a with
  | ⟨0, _⟩ => show win2_3.index t (0 : Fin 2) * 1 + 1 * (x 0).val = (x 0).val; omega
  | ⟨1, _⟩ => show win2_3.index t (1 : Fin 2) * 1 + 1 * (x 1).val = (x 1).val; omega

/-- Stage three of the arrays the region is entered with, as a column indexed like the output array. -/
abbrev G (c : Dev nD) : S50000x1.Idx → EReal :=
  fun i => Cert.Spec.head (V c main_v64) (V c main_v65) (V c main_arg8) (V c main_v66) ⟨(i 0).val, idx2_lt0 i⟩

/-- What point t writes back is rows 2000 t … 2000 t + 1999 of that column. -/
theorem flushed_eq (c : Dev nD) (t : Fin cfg2.N) :
    (dat2 (F := Ideal) V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S2000x128) hz, View.ld_unit_zero (S := S1x128) hz,
    View.ld_unit_zero (S := S128x1) hz, View.ld_unit_zero (S := S1x1) hz]
  funext j
  obtain ⟨p, q, rfl⟩ : ∃ (p : Fin 2000) (q : Fin 1), j = ix2 p q := ⟨j 0, j 1, eq_ix2 j⟩
  obtain rfl : q = 0 := Subsingleton.elim _ _
  obtain ⟨-, -, -, -, -, -, -, -, e0, e1⟩ := idx_facts t
  have hN : t.val < 25 := lt_of_lt_of_eq t.isLt (show cfg2.N = 25 from N_2)
  obtain ⟨r, hr⟩ : ∃ r : Fin 50000, r.val = 2000 * t.val + p.val := ⟨⟨2000 * t.val + p.val, by have := p.isLt; omega⟩, rfl⟩
  have hi : (⟨((((cfg2.win 4).blk t).view.emb (ix2 p (0 : Fin 1))) 0).val, idx2_lt0 _⟩ : Fin 50000) = r := by
    apply Fin.ext
    show win2_4.index t (0 : Fin 2) * 2000 + 1 * p.val = r.val
    omega
  show k2_pay1 (F := Ideal) (iblk2 V c 0 t) (iblk2 V c 1 t) (iblk2 V c 2 t) (iblk2 V c 3 t) (ix2 p (0 : Fin 1))
    = Cert.Spec.head (V c main_v64) (V c main_v65) (V c main_arg8) (V c main_v66)
        ⟨((((cfg2.win 4).blk t).view.emb (ix2 p (0 : Fin 1))) 0).val, idx2_lt0 _⟩
  rw [hi]
  refine (pay_apply (iblk2 V c 0 t) (iblk2 V c 1 t) (iblk2 V c 2 t) (iblk2 V c 3 t) p).trans ?_
  unfold Cert.Spec.head
  rw [blk1_eq V c t, blk2_eq V c t, blk3_eq V c t]
  refine congrArg₂ (· + ·) (Finset.sum_congr rfl fun k _ => ?_) rfl
  rw [blk0_apply V c t p k r hr]

/-- An index of the output array is in point t's block iff each coordinate is in the block's range on its axis. -/
theorem mem_blk (t : Fin cfg2.N) (i : S50000x1.Idx) :
    i ∈ ((cfg2.win 4).blk t).view.set ↔ ∀ a : Fin 2, win2_4.index t a * S2000x1.size a ≤ (i a).val ∧ (i a).val < win2_4.index t a * S2000x1.size a + S2000x1.size a := by
  show i ∈ ((View.whole main_v67).slice (win2_4.rect t)).set ↔ _
  rw [View.set_slice_whole, Rect.mem_set_unit]
  exact Iff.rfl

/-- Every output row lies in a block: row r in the block of point r / 2000 (25 points of 2000 rows). -/
theorem cover (i : S50000x1.Idx) :
    ∃ t : Fin cfg2.N, (cfg2.win 4).flush t = true ∧ i ∈ ((cfg2.win 4).blk t).view.set := by
  have h0 : (i 0).val < 50000 := idx2_lt0 i
  have h1 : (i 1).val < 1 := idx2_lt1 i
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx_facts t
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 1 ≤ (i 1).val ∧ (i 1).val < win2_4.index t (1 : Fin 2) * 1 + 1; omega

/-- The column the third region leaves in its output window: stage three of the arrays it was entered with. -/
theorem arr (c : Dev nD) :
    (dat2 (F := Ideal) V c).arrAt 4 cfg2.N
      = fun i : S50000x1.Idx => Cert.Spec.head (V c main_v64) (V c main_v65) (V c main_arg8) (V c main_v66)
          ⟨(i 0).val, idx2_lt0 i⟩ :=
  (dat2 V c).arrAt_eq_of_cover 4 (G V c) (fun t _ => flushed_eq V c t) cover

end Cert.KernelIdeal.Reg2

end
-- ==== Proof.LibRowGather2.lean ====
/-
  A general lemma: StableHLO's gather of ROWS of a table at a COLUMN of start indices, read at an index.

  What jnp's table[idx] lowers to for a rank-2 table [N, C] and an integer vector idx of length R: a gather whose start
  indices are the vector laid out as an [R, 1] column (the index vector on the last axis, of length one), the table's
  axis 0 collapsed and start-indexed, its axis 1 the result's one offset axis, slices of one whole row. The result
  element (r, c) is the table's element (row, c), where row is the start index idx[r, 0] read as a signed integer and
  clamped into [0, N - 1], as StableHLO's gather clamps every start index.
-/
import Idealize.ShloMosaic.Lib.ValueIdx

noncomputable section

namespace Cert.RowGather2

open Idealize.ShloMosaic Idealize.ShloMosaic.ValueIdx

variable {α : Type}

/-- Those dimension numbers, for a table [N, C], start indices [R, 1] and a result [R, C]; the conditions wf are
    decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

/-- The table's column axis is not start-indexed … -/
theorem one_not_mem_startIndexMap : ¬ (1 : Fin 2) ∈ (rowDims N C R wf).startIndexMap := fun h =>
  absurd (congrArg Fin.val (List.mem_singleton.mp h)) Nat.one_ne_zero

/-- … and is kept (neither collapsed nor batching). -/
theorem one_mem_sKept : (1 : Fin 2) ∈ (rowDims N C R wf).sKept :=
  (GatherDims.mem_sKept _ _).mpr ⟨fun h => absurd (congrArg Fin.val (List.mem_singleton.mp h)) Nat.one_ne_zero, List.not_mem_nil⟩

/-- On the ROW axis the operand index is the clamped start: the axis is collapsed (no offset coordinate) and its start
    is the index column's word for row r. -/
theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the COLUMN axis it is the result's offset coordinate: not start-indexed (start 0), read by the result's axis 1. -/
theorem operandIdx_col :
    ((rowDims N C R wf).operandIdx (ix2 r c) idx (1 : Fin 2)).val = c.val := by
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

/-- THE GATHER READ AT (r, c): the table at the clamped start row and column c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  refine congrArg x (funext fun a => Fin.ext ?_)
  match a with
  | ⟨0, _⟩ => exact operandIdx_row wf idx r c
  | ⟨1, _⟩ => exact operandIdx_col wf idx r c

end Cert.RowGather2

end
-- ==== Proof.Ref0.lean ====
/-
  The reference's first projection, read at an index. It joins each node's 768 features with the 768-long row of the
  table that the node's graph number picks (a negative number counted from the end, the start then clamped into the
  table) and multiplies the 1536-long row into the first weight matrix. Where the graph number is one of 0 … 63 the
  picked row is that number's, and the sum over the 1536 columns is the sum over the features' 768 plus the sum over
  the table row's 768 against the matrix's last 768 rows.
-/
import proofs.«416491_j11553462026720_1_alg».proof.Proof.RefRead
import proofs.«416491_j11553462026720_1_alg».proof.Proof.Spec
import proofs.«416491_j11553462026720_1_alg».proof.Proof.LibRowGather2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.ReferenceIdeal.Ref0

open Cert.ReferenceIdeal Cert.ReferenceIdeal.Gen Cert.ReferenceIdeal.ReadP
open Idealize.ShloMosaic Idealize.ShloMosaic.ValueIdx

variable (x0 : (⟨S50000x768, .f32⟩ : BufTy).Contents (Elt Ideal)) (x1 : (⟨S2x600000, .i32⟩ : BufTy).Contents (Elt Ideal))
  (x2 : (⟨S64x768, .f32⟩ : BufTy).Contents (Elt Ideal)) (x3 : (⟨S50000, .i32⟩ : BufTy).Contents (Elt Ideal))
  (x4 : (⟨S1536x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-! ## Words: a graph number in 0 … 63 -/

/-- A word below 64 is not negative read signed (0 is not below it), so the select that would add 64 to a negative
    number keeps the word. -/
theorem select_word (w : BitVec 32) (hw : w.toNat < 64) :
    Scalar.select (IntOp.cmpi .slt w 0#32) (IntOp.addi w 64#32) w = w := by
  have hc : IntOp.cmpi .slt w 0#32 ≠ 1#1 := fun h =>
    absurd ((StableHlo.Predicate.slt_iff_toNat (a := w) (b := 0#32) (by omega) (by decide)).mp h) (Nat.not_lt_zero _)
  exact if_neg hc

/-- Such a word read signed and clamped into the table's rows 0 … 63 is its own value. -/
theorem clamp_word (w : BitVec 32) (hw : w.toNat < 64) : min w.toInt.toNat (64 - 1) = w.toNat := by
  rw [StableHlo.Predicate.toInt_eq_toNat_of_lt (a := w) (by omega), Int.toNat_natCast]
  omega

/-! ## The two layout steps at an index, over any operands -/

/-- Two [50000, 768] arrays joined along the columns: a column below 768 reads the first array at that column
    (same row; the column falls inside the first piece's extent). -/
theorem join_left (a b : S50000x768.Idx → EReal) (p : Fin 50000) (k : Fin 768) :
    concatenate S50000x1536 1 [⟨S50000x768, a⟩, ⟨S50000x768, b⟩] concatenates_S50000x768_S50000x768_S50000x1536_d1
        (ix2 p (⟨k.val, by omega⟩ : Fin 1536)) = a (ix2 p k) := by
  refine concatenate_pair_apply_left (t := S50000x1536) (s₁ := S50000x768) (s₂ := S50000x768) (1 : Fin 2) a b _ _ rfl (ix2 p k) ?_
  intro c
  match c with
  | ⟨0, _⟩ => rfl
  | ⟨1, _⟩ => rfl

/-- … and column 768 + k reads the second array at column k (the first piece's extent, 768, taken off). -/
theorem join_right (a b : S50000x768.Idx → EReal) (p : Fin 50000) (k : Fin 768) :
    concatenate S50000x1536 1 [⟨S50000x768, a⟩, ⟨S50000x768, b⟩] concatenates_S50000x768_S50000x768_S50000x1536_d1
        (ix2 p (⟨768 + k.val, by omega⟩ : Fin 1536)) = b (ix2 p k) := by
  refine concatenate_pair_apply_right (t := S50000x1536) (s₁ := S50000x768) (s₂ := S50000x768) (1 : Fin 2) a b _ _ rfl rfl (ix2 p k) ?_ ?_
  · intro c hc
    match c with
    | ⟨0, _⟩ => rfl
    | ⟨1, _⟩ => exact absurd rfl hc
  · show k.val + 768 = 768 + k.val
    omega

/-- The gather of table rows at a column of start words, at (p, k): the table's row at the start word for p, read
    signed and clamped into 0 … 63, at column k. The printed dimension numbers are those of a row gather. -/
theorem rows_at (t : S64x768.Idx → EReal) (idx : IVec S50000x1 32) (p : Fin 50000) (k : Fin 768) :
    Host.gather gather_S64x768_S50000x1_S50000x768_1_0_n_n_0_1_1768 t idx (ix2 p k)
      = t (ix2 (⟨min (idx (ix2 p (0 : Fin 1))).toInt.toNat (64 - 1), by omega⟩ : Fin 64) k) := by
  have hd : gather_S64x768_S50000x1_S50000x768_1_0_n_n_0_1_1768
      = Cert.RowGather2.rowDims 64 768 50000 gather_S64x768_S50000x1_S50000x768_1_0_n_n_0_1_1768.wf := rfl
  rw [hd]
  exact Cert.RowGather2.gather_rows_apply (by decide) _ t idx p k

/-! ## The reference's stages at an index -/

/-- The column of start words at row p is node p's graph word, when that word is below 64: the column is the vector
    of wrapped words laid out as [50000, 1], the wrap compares with the constant 0 and would add the constant 64. -/
theorem start_word (p : Fin 50000) (hw : (x3 (ix1 p)).toNat < 64) :
    val_main_v12 (F := Ideal) x3 (ix2 p (0 : Fin 1)) = x3 (ix1 p) := by
  have e : idx_main_v12 (ix2 p (0 : Fin 1)) = ix1 p := funext fun a => Fin.ext (by match a with | ⟨0, _⟩ => rfl)
  rw [val_main_v12_apply, e, val_main_v11_apply, val_main_v8_apply, val_main_v10_apply, val_main_v7_apply,
    val_main_v9_apply, val_main_c_apply, val_main_c_0_apply]
  exact select_word (x3 (ix1 p)) hw

/-- The gathered array at (p, k) is the table's row of node p's graph number, at column k. -/
theorem picked_row (hb : ∀ p : Fin 50000, (x3 (ix1 p)).toNat < 64) (p : Fin 50000) (k : Fin 768) :
    val_main_v13 (F := Ideal) x2 x3 (ix2 p k) = x2 (ix2 (⟨(x3 (ix1 p)).toNat, hb p⟩ : Fin 64) k) := by
  unfold val_main_v13
  refine (rows_at x2 (val_main_v12 (F := Ideal) x3) p k).trans ?_
  refine congrArg x2 (congrArg (fun r : Fin 64 => ix2 r k) (Fin.ext ?_))
  show min (val_main_v12 (F := Ideal) x3 (ix2 p (0 : Fin 1))).toInt.toNat (64 - 1) = (x3 (ix1 p)).toNat
  rw [start_word x3 p (hb p)]
  exact clamp_word (x3 (ix1 p)) (hb p)

/-- The joined array at a column below 768: node p's feature at that column. -/
theorem joined_left (p : Fin 50000) (k : Fin 768) :
    val_main_v14 (F := Ideal) x0 x2 x3 (ix2 p (⟨k.val, by omega⟩ : Fin 1536)) = x0 (ix2 p k) := by
  unfold val_main_v14
  exact join_left x0 (val_main_v13 (F := Ideal) x2 x3) p k

/-- The joined array at column 768 + k: the picked table row at column k. -/
theorem joined_right (hb : ∀ p : Fin 50000, (x3 (ix1 p)).toNat < 64) (p : Fin 50000) (k : Fin 768) :
    val_main_v14 (F := Ideal) x0 x2 x3 (ix2 p (⟨768 + k.val, by omega⟩ : Fin 1536))
      = x2 (ix2 (⟨(x3 (ix1 p)).toNat, hb p⟩ : Fin 64) k) := by
  unfold val_main_v14
  exact (join_right x0 (val_main_v13 (F := Ideal) x2 x3) p k).trans (picked_row x2 x3 hb p k)

/-- The first projection at (p, q), for graph numbers in 0 … 63 (read unsigned, which is the same). -/
theorem v15_apply (hb : ∀ p : Fin 50000, (x3 (ix1 p)).toNat < 64) (p : Fin 50000) (q : Fin 128) :
    val_main_v15 (F := Ideal) x0 x2 x3 x4 (ix2 p q)
      = (∑ k : Fin 768, x0 (ix2 p k) * x4 (ix2 (⟨k.val, by omega⟩ : Fin 1536) q))
        + ∑ k : Fin 768, x2 (ix2 (⟨(x3 (ix1 p)).toNat, hb p⟩ : Fin 64) k) * x4 (ix2 (⟨768 + k.val, by omega⟩ : Fin 1536) q) := by
  -- the contraction's index maps, in coordinates: row p of the joined array at column c, row c of the matrix at column q
  have el : ∀ c : Fin 1536, lidx_main_v15 (ix2 p q) c = ix2 p c := fun c =>
    funext fun a => Fin.ext (by match a with | ⟨0, _⟩ => rfl | ⟨1, _⟩ => rfl)
  have er : ∀ c : Fin 1536, ridx_main_v15 (ix2 p q) c = ix2 c q := fun c =>
    funext fun a => Fin.ext (by match a with | ⟨0, _⟩ => rfl | ⟨1, _⟩ => rfl)
  rw [val_main_v15_apply, Cert.Spec.sum_split]
  refine congrArg₂ (· + ·) (Finset.sum_congr rfl fun k _ => ?_) (Finset.sum_congr rfl fun k _ => ?_)
  · rw [el, er, joined_left x0 x2 x3 p k]
  · rw [el, er, joined_right x0 x2 x3 hb p k]

end Cert.ReferenceIdeal.Ref0

end
-- ==== Proof.Ref12.lean ====
/-
  The reference's second projection and its output head, read at an index: to the aggregated node array each adds a
  bias along the rows, clamps at zero and multiplies into a weight matrix (the head: into a weight column, plus the
  output constant, the column then read as a vector). Index by index these are stages two and three of Spec.lean of the
  aggregated array, whatever that array holds.
-/
import proofs.«416491_j11553462026720_1_alg».proof.Proof.RefRead
import proofs.«416491_j11553462026720_1_alg».proof.Proof.Spec
import proofs.«416491_j11553462026720_1_alg».proof.Proof.LibRowGather2
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Ref12

open Cert.ReferenceIdeal Cert.ReferenceIdeal.Gen Cert.ReferenceIdeal.ReadP
open Idealize.ShloMosaic Idealize.ShloMosaic.ValueIdx

variable (x0 : (⟨S50000x768, .f32⟩ : BufTy).Contents (Elt Ideal)) (x1 : (⟨S2x600000, .i32⟩ : BufTy).Contents (Elt Ideal))
  (x2 : (⟨S64x768, .f32⟩ : BufTy).Contents (Elt Ideal)) (x3 : (⟨S50000, .i32⟩ : BufTy).Contents (Elt Ideal))
  (x4 : (⟨S1536x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-- The second projection at (p, q): stage two of the first aggregation. -/
theorem v59_apply (p : Fin 50000) (q : Fin 128) :
    val_main_v59 (F := Ideal) x0 x1 x2 x3 x4 x5 x6 (ix2 p q)
      = Cert.Spec.dense (val_main_v54 (F := Ideal) x0 x1 x2 x3 x4) (fun j => x5 (ix1 ⟨(j 1).val, idx2_lt1 j⟩)) x6 p q := by
  unfold Cert.Spec.dense
  -- the product at (p, q) is the sum over k of the clamped row entry (p, k) times the matrix entry (k, q)
  rw [val_main_v59_apply]
  refine Finset.sum_congr rfl fun k _ => ?_
  have el : lidx_main_v59 (ix2 p q) k = ix2 p k :=
    funext fun a => Fin.ext (by match a with | ⟨0, _⟩ => rfl | ⟨1, _⟩ => rfl)
  have er : ridx_main_v59 (ix2 p q) k = ix2 k q :=
    funext fun a => Fin.ext (by match a with | ⟨0, _⟩ => rfl | ⟨1, _⟩ => rfl)
  -- the bias, laid out as one row and repeated down the 50000 rows, is read at its column k
  have eb : idx_main_v55 (idx_main_v56 (ix2 p k)) = ix1 ⟨k.val, k.isLt⟩ :=
    funext fun a => Fin.ext (by match a with | ⟨0, _⟩ => rfl)
  rw [el, er, val_main_v58_apply, val_main_v57_apply, val_main_v56_apply, val_main_v55_apply,
    val_main_call2_v0_apply, val_main_call2_cst_apply, eb]
  generalize val_main_v54 (F := Ideal) x0 x1 x2 x3 x4 = h
  -- on the extended reals the clamp is max with 0 and the float operations are + and *
  simp only [Ideal.maximumf_def, Ideal.addf_def, Ideal.ofBits_def, Ideal.ofBits_zero_f32]

/-- The result at p: stage three of the second aggregation. -/
theorem v107_apply (p : Fin 50000) :
    val_main_v107 (F := Ideal) x0 x1 x2 x3 x4 x5 x6 x7 x8 x9 (ix1 p)
      = Cert.Spec.head (val_main_v98 (F := Ideal) x0 x1 x2 x3 x4 x5 x6) (fun j => x7 (ix1 ⟨(j 1).val, idx2_lt1 j⟩)) x8
          (fun _ => x9 (ix1 (0 : Fin 1))) p := by
  unfold Cert.Spec.head
  -- entry p of the vector is entry (p, 0) of the one-column array
  have e7 : idx_main_v107 (ix1 p) = ix2 p (0 : Fin 1) :=
    funext fun a => Fin.ext (by
      match a with
      | ⟨0, _⟩ => show p.val / 1 = p.val; exact Nat.div_one _
      | ⟨1, _⟩ => rfl)
  -- the output constant, laid out as a 1 x 1 array and repeated down the rows, is read at its one entry
  have e9 : idx_main_v104 (idx_main_v105 (ix2 p (0 : Fin 1))) = ix1 (0 : Fin 1) :=
    funext fun a => Fin.ext (by match a with | ⟨0, _⟩ => rfl)
  rw [val_main_v107_apply, e7, val_main_v106_apply, val_main_v103_apply, val_main_v105_apply,
    val_main_v104_apply, e9, Ideal.addf_def]
  refine congrArg₂ (· + ·) (Finset.sum_congr rfl fun k _ => ?_) rfl
  have el : lidx_main_v103 (ix2 p (0 : Fin 1)) k = ix2 p k :=
    funext fun a => Fin.ext (by match a with | ⟨0, _⟩ => rfl | ⟨1, _⟩ => rfl)
  have er : ridx_main_v103 (ix2 p (0 : Fin 1)) k = ix2 k (0 : Fin 1) :=
    funext fun a => Fin.ext (by match a with | ⟨0, _⟩ => rfl | ⟨1, _⟩ => rfl)
  -- the bias, laid out as one row and repeated down the 50000 rows, is read at its column k
  have eb : idx_main_v99 (idx_main_v100 (ix2 p k)) = ix1 ⟨k.val, k.isLt⟩ :=
    funext fun a => Fin.ext (by match a with | ⟨0, _⟩ => rfl)
  rw [el, er, val_main_v102_apply, val_main_v101_apply, val_main_v100_apply, val_main_v99_apply,
    val_main_call5_v0_apply, val_main_call5_cst_apply, eb]
  generalize val_main_v98 (F := Ideal) x0 x1 x2 x3 x4 x5 x6 = h
  -- on the extended reals the clamp is max with 0 and the float operations are + and *
  simp only [Ideal.maximumf_def, Ideal.addf_def, Ideal.ofBits_def, Ideal.ofBits_zero_f32]

end Cert.ReferenceIdeal.Ref12

end
-- ==== Proof.AggBridge.lean ====
/-
  The aggregation along the edges is ONE function in the two programs. The kernel program and the reference apply the
  same host operations to the edge array (the endpoint vectors with the self loops appended, the in-degree, its inverse
  square root, the per-edge weight) and then to a node array (gather the source rows, scale, add into the destination
  rows); only the node array differs. So the reference's two aggregation stages are the kernel program's aggregation
  applied to the reference's own projected arrays. Stated for any float family: nothing is computed, the terms are
  compared as written.
-/
import proofs.«416491_j11553462026720_1_alg».proof.Proof.KDefs
import proofs.«416491_j11553462026720_1_alg».proof.Proof.RefRead

noncomputable section

namespace Cert.AggBridge

open Idealize.ShloMosaic
open Cert.ReferenceIdeal Cert.ReferenceIdeal.ReadP

variable {F : FTy → Type} [FloatOps F]
variable (x0 : (⟨S50000x768, .f32⟩ : BufTy).Contents (Elt F)) (x1 : (⟨S2x600000, .i32⟩ : BufTy).Contents (Elt F))
  (x2 : (⟨S64x768, .f32⟩ : BufTy).Contents (Elt F)) (x3 : (⟨S50000, .i32⟩ : BufTy).Contents (Elt F))
  (x4 : (⟨S1536x128, .f32⟩ : BufTy).Contents (Elt F)) (x5 : (⟨S128, .f32⟩ : BufTy).Contents (Elt F))
  (x6 : (⟨S128x128, .f32⟩ : BufTy).Contents (Elt F))

/-- The source endpoints. -/
theorem src_eq : Cert.KernelIdeal.KDefs.src (F := F) x1 = val_main_v3 (F := F) x1 := rfl
/-- The destination endpoints. -/
theorem dst_eq : Cert.KernelIdeal.KDefs.dst (F := F) x1 = val_main_v6 (F := F) x1 := rfl
/-- The in-degree, as the reference's first layer computes it. -/
theorem deg_eq : Cert.KernelIdeal.KDefs.deg (F := F) x1 = val_main_v19 (F := F) x1 := rfl
/-- The in-degree, as the reference's second layer computes it again. -/
theorem deg_eq' : Cert.KernelIdeal.KDefs.deg (F := F) x1 = val_main_v63 (F := F) x1 := rfl
/-- The inverse root of the degree, first layer. -/
theorem dinv_eq : Cert.KernelIdeal.KDefs.dinv (F := F) x1 = val_main_v26 (F := F) x1 := rfl
/-- The inverse root of the degree, second layer. -/
theorem dinv_eq' : Cert.KernelIdeal.KDefs.dinv (F := F) x1 = val_main_v70 (F := F) x1 := rfl
/-- The edge weights as a column, first layer. -/
theorem ncol_eq : Cert.KernelIdeal.KDefs.ncol (F := F) x1 = val_main_v49 (F := F) x1 := rfl
/-- The edge weights as a column, second layer. -/
theorem ncol_eq' : Cert.KernelIdeal.KDefs.ncol (F := F) x1 = val_main_v93 (F := F) x1 := rfl

/-- The reference's first aggregation is the aggregation of its first projection. -/
theorem v54_eq : val_main_v54 (F := F) x0 x1 x2 x3 x4
    = Cert.KernelIdeal.KDefs.agg (F := F) x1 (val_main_v15 (F := F) x0 x2 x3 x4) := rfl

/-- The reference's second aggregation is the aggregation of its second projection. -/
theorem v98_eq : val_main_v98 (F := F) x0 x1 x2 x3 x4 x5 x6
    = Cert.KernelIdeal.KDefs.agg (F := F) x1 (val_main_v59 (F := F) x0 x1 x2 x3 x4 x5 x6) := rfl

end Cert.AggBridge

end
-- ==== Proof.Bridge.lean ====
/-
  The two programs compute one function. Stage by stage, on arguments whose graph numbers are 0 … 63:

  * the first region's array is the reference's first projection — the node's 768 features against the first 768 rows
    of the weight matrix, plus the graph's table row against the last 768 rows: the kernel picks that row by a sum
    against a 0/1 weight, the reference by a gather, and the 1536-long sum splits in two;
  * the aggregation along the edges is the same host operations in both programs, so equal arrays go to equal arrays;
  * the second region's array is the reference's second projection of the aggregated array (bias, clamp at zero,
    project), and the third region's column is the reference's output head of the second aggregation;
  * the result is that column read as a vector.
-/
import proofs.«416491_j11553462026720_1_alg».proof.Defs
import proofs.«416491_j11553462026720_1_alg».proof.Proof.KRun
import proofs.«416491_j11553462026720_1_alg».proof.Proof.KHost0
import proofs.«416491_j11553462026720_1_alg».proof.Proof.KHost1
import proofs.«416491_j11553462026720_1_alg».proof.Proof.KVals
import proofs.«416491_j11553462026720_1_alg».proof.Proof.Reg0
import proofs.«416491_j11553462026720_1_alg».proof.Proof.Reg1
import proofs.«416491_j11553462026720_1_alg».proof.Proof.Reg2
import proofs.«416491_j11553462026720_1_alg».proof.Proof.Ref0
import proofs.«416491_j11553462026720_1_alg».proof.Proof.Ref12
import proofs.«416491_j11553462026720_1_alg».proof.Proof.AggBridge
import proofs.«416491_j11553462026720_1_alg».proof.Proof.PreDecode

noncomputable section

open scoped BigOperators

namespace Cert.Bridge

open Cert.KernelIdeal Cert.KernelIdeal.Gen Cert.KernelIdeal.KDefs
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The hypothesis the first stage needs: every graph number is one of 0 … 63. -/
def InRange : Prop := ∀ (c : Dev nD) (p : Fin 50000), (m ((c : Thread nD τ).loc main_arg3) (ix1 p)).toNat < 64

/-- STAGE ONE: the first region's array is the reference's first projection of the same arguments. -/
theorem stage0 (hb : InRange m) (c : Dev nD) :
    (dat0 (F := Ideal) (V5 m ρ) c).arrAt 4 cfg0.N
      = Cert.ReferenceIdeal.ReadP.val_main_v15 (F := Ideal) (m ((c : Thread nD τ).loc main_arg0)) (m ((c : Thread nD τ).loc main_arg2))
          (m ((c : Thread nD τ).loc main_arg3)) (m ((c : Thread nD τ).loc main_arg4)) := by
  rw [Cert.KernelIdeal.Reg0.arr (V5 m ρ) c]
  funext i
  obtain ⟨p, q, rfl⟩ : ∃ (p : Fin 50000) (q : Fin 128), i = ix2 p q := ⟨i 0, i 1, eq_ix2 i⟩
  rw [Cert.ReferenceIdeal.Ref0.v15_apply _ _ _ _ (hb c) p q]
  show Cert.Spec.proj (V5 m ρ c main_arg0) (V5 m ρ c main_v34) (V5 m ρ c main_v35) (V5 m ρ c main_v37) p q = _
  rw [Cert.KernelIdeal.KHost0.V5_arg0, Cert.KernelIdeal.KHost0.V5_v34, Cert.KernelIdeal.KHost0.V5_v35, Cert.KernelIdeal.KHost0.V5_v37]
  unfold Cert.Spec.proj
  rw [Cert.KernelIdeal.KVals.col_apply]
  simp only [Cert.KernelIdeal.KVals.wa_apply, Cert.KernelIdeal.KVals.ew_apply, Cert.KernelIdeal.KVals.wb_apply]
  rw [Cert.Spec.sum_hot _ (hb c p)]

/-- STAGE TWO: the second region's array is the reference's second projection. -/
theorem stage1 (hb : InRange m) (c : Dev nD) :
    (dat1 (F := Ideal) (V7 m ρ) c).arrAt 3 cfg1.N
      = Cert.ReferenceIdeal.ReadP.val_main_v59 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [Cert.KernelIdeal.Reg1.arr (V7 m ρ) c]
  funext i
  obtain ⟨p, q, rfl⟩ : ∃ (p : Fin 50000) (q : Fin 128), i = ix2 p q := ⟨i 0, i 1, eq_ix2 i⟩
  rw [Cert.ReferenceIdeal.Ref12.v59_apply _ _ _ _ _ _ _ p q, Cert.AggBridge.v54_eq]
  show Cert.Spec.dense (V7 m ρ c main_v50) (V7 m ρ c main_v51) (V7 m ρ c main_arg6) p q = _
  rw [Cert.KernelIdeal.KHost1.V7_v50, Cert.KernelIdeal.KHost1.V7_v51, Cert.KernelIdeal.KHost1.V7_arg6, stage0 m ρ hb c]
  unfold Cert.Spec.dense
  refine Finset.sum_congr rfl fun k _ => ?_
  rw [Cert.KernelIdeal.KVals.row_apply]

/-- STAGE THREE and the result: the program's result buffer is the reference's result of the same arguments. -/
theorem result_eq (hb : InRange m) (c : Dev nD) :
    W11 m ρ c (Proc.devRef .tc main_v68)
      = Cert.ReferenceIdeal.ReadP.val_main_v107 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  rw [Cert.KernelIdeal.KHost1.W11_v68]
  funext i
  obtain ⟨p, rfl⟩ : ∃ p : Fin 50000, i = ix1 p := ⟨i 0, eq_ix1 i⟩
  rw [Cert.KernelIdeal.KVals.vec_apply, Cert.KernelIdeal.Reg2.arr (V9 m ρ) c]
  rw [Cert.ReferenceIdeal.Ref12.v107_apply _ _ _ _ _ _ _ _ _ _ p, Cert.AggBridge.v98_eq]
  show Cert.Spec.head (V9 m ρ c main_v64) (V9 m ρ c main_v65) (V9 m ρ c main_arg8) (V9 m ρ c main_v66) p = _
  rw [Cert.KernelIdeal.KHost1.V9_v64, Cert.KernelIdeal.KHost1.V9_v65, Cert.KernelIdeal.KHost1.V9_arg8, Cert.KernelIdeal.KHost1.V9_v66, stage1 m ρ hb c]
  unfold Cert.Spec.head
  rw [Cert.KernelIdeal.KVals.one_apply]
  refine congrArg₂ (· + ·) (Finset.sum_congr rfl fun k _ => ?_) rfl
  rw [Cert.KernelIdeal.KVals.row_apply]

end Cert.Bridge

end
-- ==== Proof.lean ====
/-
  A two-layer graph convolution with a class-conditioned input: three dense TensorCore stages (a projection of the
  node features that also adds the node's graph-table row, and two bias–clamp–project stages) with the symmetric
  normalised aggregation along the edges between them, against the plain reference that joins features and table row,
  and does every dense stage on the host.

  Over the extended reals the two programs agree wherever every graph number is one of 0 … 63 (the precondition's
  last two conjuncts): the kernel picks the table row by a sum against a 0/1 weight that is one exactly at the node's
  graph number, the reference by a gather, and outside 0 … 63 the weight is zero everywhere while the gather still
  returns a row. The frames of the two kernel programs are the generated ones; the reference's frame is its run with
  the result dropped; the idealization rewrote nothing, so there is nothing to preserve; and the value claim is the
  chain of Proof/Bridge.lean: region by region the kernel's arrays are the reference's staged values, the aggregation
  being the same host operations in both.
-/
import proofs.«416491_j11553462026720_1_alg».proof.Defs
import proofs.«416491_j11553462026720_1_alg».proof.Proof.Gen.Kernel
import proofs.«416491_j11553462026720_1_alg».proof.Proof.Gen.Kernel.Skeleton
import proofs.«416491_j11553462026720_1_alg».proof.Proof.Gen.Kernel.Launch
import proofs.«416491_j11553462026720_1_alg».proof.Proof.Gen.Kernel.Points
import proofs.«416491_j11553462026720_1_alg».proof.Proof.Gen.Kernel.Frame
import proofs.«416491_j11553462026720_1_alg».proof.Proof.Gen.KernelIdeal
import proofs.«416491_j11553462026720_1_alg».proof.Proof.Gen.KernelIdeal.Skeleton
import proofs.«416491_j11553462026720_1_alg».proof.Proof.Gen.KernelIdeal.Launch
import proofs.«416491_j11553462026720_1_alg».proof.Proof.Gen.KernelIdeal.Points
import proofs.«416491_j11553462026720_1_alg».proof.Proof.Gen.KernelIdeal.Frame
import proofs.«416491_j11553462026720_1_alg».proof.Proof.Gen.ReferenceIdeal
import proofs.«416491_j11553462026720_1_alg».proof.Proof.Gen.Pre_finite_inputs
import proofs.«416491_j11553462026720_1_alg».proof.Proof.RefRun
import proofs.«416491_j11553462026720_1_alg».proof.Proof.RefRead
import proofs.«416491_j11553462026720_1_alg».proof.Proof.KRun
import proofs.«416491_j11553462026720_1_alg».proof.Proof.PreDecode
import proofs.«416491_j11553462026720_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, graph numbers in 0 … 63, both programs end with the same result:
    the kernel program's result buffer holds the reference's result of the same arguments. -/
theorem algebraic : Cert.algebraic_KernelIdeal_ReferenceIdeal := by
  intro m ρ m' ρ' hpre hagree
  have hb : Cert.Bridge.InRange m := fun c p =>
    Cert.Pre_finite_inputs.Decode.batch_range _ _ _ _ _ _ _ _ _ _ (hpre c) p
  refine ⟨fun c => Cert.KernelIdeal.Gen.W11 m ρ c (Proc.devRef .tc Cert.KernelIdeal.main_v68),
    Cert.KernelIdeal.ValueRun.run_result (F := Ideal) m ρ, ?_⟩
  refine (θ_run Cert.ReferenceIdeal.defs _ _).mono (fun r h c => ⟨(h c).1.trans ?_, (h c).2⟩)
    (Cert.ReferenceIdeal.ValueP.run (F := Ideal) m' ρ')
  rw [Cert.ReferenceIdeal.ReadP.val_main_v107_eq m' c]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.Bridge.result_eq m ρ hb c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
